-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S2x4096x1 : Shape := ⟨3, ![2, 4096, 1]⟩
abbrev S_ : Shape := ⟨0, ![]⟩
abbrev S1x4096x1 : Shape := ⟨3, ![1, 4096, 1]⟩
abbrev S4096x1 : Shape := ⟨2, ![4096, 1]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S2x4096x1 : S_.BroadcastsInDim S2x4096x1 (![] : Fin 0 → Fin S2x4096x1.rank)
  reducesTo_S2x4096x1_S_d0_1_2 : S2x4096x1.ReducesTo [0, 1, 2] S_
  slices_S2x4096x1_S1x4096x1_1_0_0 : S2x4096x1.Slices ![1, 0, 0] S1x4096x1
  shapeCasts_S1x4096x1_S4096x1 : S1x4096x1.ShapeCasts S4096x1
  bcast_S_S4096x1 : S_.BroadcastsInDim S4096x1 (![] : Fin 0 → Fin S4096x1.rank)
  reducesTo_S4096x1_S_d0_1 : S4096x1.ReducesTo [0, 1] S_

variable [Facts]

def fn_part1 {F : FTy → Type} [FloatOps F] (main_v13 : IVec S_ 1) (main_v15 : FVec F S4096x1 .f32) (main_v16 : FVec F S4096x1 .f32) : IVec S_ 1 :=
  let main_v17 : IVec S4096x1 1 := cmpf .oeq main_v15 main_v16
  let main_c_5 : IVec S_ 1 := constantI S_ 1 1#1
  let main_v18 : IVec S_ 1 := (fun x v => Host.reduce IntOp.andi x v reducesTo_S4096x1_S_d0_1 h_S_) main_v17 main_c_5
  let main_v19 : IVec S_ 1 := noti main_v18
  let main_v20 : IVec S_ 1 := andi main_v13 main_v19
  main_v20

def fn {F : FTy → Type} [FloatOps F] (main_arg0 : FVec F S8192x4096 .f32) (main_arg1 : FVec F S8192x4096 .f32) (main_arg2 : FVec F S2x4096x1 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S2x4096x1 .f32 := Host.absf main_arg2
  let main_cst_2 : FVec F S_ .f32 := constant S_ .f32 0x7F800000#32
  let main_v10 : FVec F S2x4096x1 .f32 := broadcastInDim S2x4096x1 ![] bcast_S_S2x4096x1 main_cst_2
  let main_v11 : IVec S2x4096x1 1 := cmpf .olt main_v9 main_v10
  let main_c_3 : IVec S_ 1 := constantI S_ 1 1#1
  let main_v12 : IVec S_ 1 := (fun x v => Host.reduce IntOp.andi x v reducesTo_S2x4096x1_S_d0_1_2 h_S_) main_v11 main_c_3
  let main_v13 : IVec S_ 1 := andi main_v8 main_v12
  let main_v14 : FVec F S1x4096x1 .f32 := (extractStridedSlice S1x4096x1 ![1, 0, 0] · slices_S2x4096x1_S1x4096x1_1_0_0) main_arg2
  let main_v15 : FVec F S4096x1 .f32 := shapeCast S4096x1 main_v14 shapeCasts_S1x4096x1_S4096x1
  let main_cst_4 : FVec F S_ .f32 := constant S_ .f32 0x00000000#32
  let main_v16 : FVec F S4096x1 .f32 := broadcastInDim S4096x1 ![] bcast_S_S4096x1 main_cst_4
  fn_part1 (F := F) main_v13 main_v15 main_v16
-- ==== Kernel.lean ====
abbrev S8192x4096 : Shape := ⟨2, ![8192, 4096]⟩
abbrev S2x4096x1 : Shape := ⟨3, ![2, 4096, 1]⟩
abbrev S1x4096x1 : Shape := ⟨3, ![1, 4096, 1]⟩
abbrev S4096x1 : Shape := ⟨2, ![4096, 1]⟩
abbrev S_ : Shape := ⟨0, ![]⟩
abbrev S1 : Shape := ⟨1, ![1]⟩
abbrev S1x1 : Shape := ⟨2, ![1, 1]⟩
abbrev S1x4096 : Shape := ⟨2, ![1, 4096]⟩
abbrev S4096x4096 : Shape := ⟨2, ![4096, 4096]⟩
abbrev S1024x512 : Shape := ⟨2, ![1024, 512]⟩
abbrev S512x1024 : Shape := ⟨2, ![512, 1024]⟩
abbrev S1024x1024 : Shape := ⟨2, ![1024, 1024]⟩
abbrev S8192x1x4096 : Shape := ⟨3, ![8192, 1, 4096]⟩

abbrev nBuf : Space → Nat
  | .hbm => 33
  | .vmem => 14
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S2x4096x1, .f32⟩
  | .hbm, ⟨3, _⟩ => ⟨S1x4096x1, .f32⟩
  | .hbm, ⟨4, _⟩ => ⟨S4096x1, .f32⟩
  | .hbm, ⟨5, _⟩ => ⟨S1x4096x1, .f32⟩
  | .hbm, ⟨6, _⟩ => ⟨S4096x1, .f32⟩
  | .hbm, ⟨7, _⟩ => ⟨S4096x1, .f32⟩
  | .hbm, ⟨8, _⟩ => ⟨S_, .f32⟩
  | .hbm, ⟨9, _⟩ => ⟨S1, .f32⟩
  | .hbm, ⟨10, _⟩ => ⟨S1, .f32⟩
  | .hbm, ⟨11, _⟩ => ⟨S1x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S1, .f32⟩
  | .hbm, ⟨17, _⟩ => ⟨S1, .f32⟩
  | .hbm, ⟨18, _⟩ => ⟨S1x1, .f32⟩
  | .hbm, ⟨19, _⟩ => ⟨S4096x1, .f32⟩
  | .hbm, ⟨20, _⟩ => ⟨S4096x1, .f32⟩
  | .hbm, ⟨21, _⟩ => ⟨S1x4096, .f32⟩
  | .hbm, ⟨22, _⟩ => ⟨S4096x4096, .f32⟩
  | .hbm, ⟨23, _⟩ => ⟨S4096x4096, .bf16⟩
  | .hbm, ⟨24, _⟩ => ⟨S1x4096, .f32⟩
  | .hbm, ⟨25, _⟩ => ⟨S4096x4096, .f32⟩
  | .hbm, ⟨26, _⟩ => ⟨S4096x4096, .bf16⟩
  | .hbm, ⟨27, _⟩ => ⟨S8192x4096, .bf16⟩
  | .hbm, ⟨28, _⟩ => ⟨S8192x4096, .bf16⟩
  | .hbm, ⟨29, _⟩ => ⟨S8192x4096, .f32⟩
  | .hbm, ⟨30, _⟩ => ⟨S8192x4096, .f32⟩
  | .hbm, ⟨31, _⟩ => ⟨S8192x1x4096, .f32⟩
  | .hbm, ⟨32, _⟩ => ⟨S8192x1x4096, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20_0 : Ref sig .tc := ⟨.hbm, 29, rfl⟩
abbrev main_v20_1 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v27 : BitVec 1 := Scalar.cmpi .eq arg2 c7_i32
  let v28 : BitVec 32 := Scalar.extui v27
  let c0_i32_19 : BitVec 32 := 0#32
  let v29 : BitVec 1 := Scalar.cmpi .ne v28 c0_i32_19
  v29

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  slices_S2x4096x1_S1x4096x1_0_0_0 : S2x4096x1.Slices ![0, 0, 0] S1x4096x1
  shapeCasts_S1x4096x1_S4096x1 : S1x4096x1.ShapeCasts S4096x1
  slices_S2x4096x1_S1x4096x1_1_0_0 : S2x4096x1.Slices ![1, 0, 0] S1x4096x1
  reducesTo_S4096x1_S1_d0 : S4096x1.ReducesTo [0] S1
  h_S_ : 0 < S_.numel
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  transposes_S4096x1_S1x4096_1_0 : S4096x1.Transposes [1, 0] S1x4096
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bcast_S8192x4096_S8192x1x4096_0_2 : S8192x4096.BroadcastsInDim S8192x1x4096 (![0, 2] : Fin 2 → Fin S8192x1x4096.rank)
  dot_S4096x1_S1x4096_S4096x4096_1_0_0_1_n_n_wf : DotDims.WF S4096x1 S1x4096 S4096x4096 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .bf16 = 32 ∨ (Rect.block (s := S8192x4096) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x4096.size a
  hwx0_1 : ∀ i : grid0.Coords, EltTy.bits .bf16 = 32 ∨ (Rect.block (s := S8192x4096) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x4096.size a
  hwx0_2 : ∀ i : grid0.Coords, EltTy.bits .bf16 = 32 ∨ (Rect.block (s := S4096x4096) S512x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x4096.size a
  hwx0_3 : ∀ i : grid0.Coords, EltTy.bits .bf16 = 32 ∨ (Rect.block (s := S4096x4096) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x4096.size a
  hwx0_4 : ∀ i : grid0.Coords, EltTy.bits .f32 = 32 ∨ (Rect.block (s := S8192x4096) S1024x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x4096.size a
  hwx0_5 : ∀ i : grid0.Coords, EltTy.bits .f32 = 32 ∨ (Rect.block (s := S8192x4096) S1024x1024.size (cc0_transform_5 i) (hinb0_5 i)).WholeWords (EltTy.packing .f32)

variable [Facts₀]

def dot_S4096x1_S1x4096_S4096x4096_1_0_0_1_n_n : DotDims S4096x1 S1x4096 S4096x4096 where
  lhsContracting := [1]
  rhsContracting := [0]
  lhsNonContracting := [0]
  rhsNonContracting := [1]
  lhsBatch := []
  rhsBatch := []
  wf := dot_S4096x1_S1x4096_S4096x4096_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v18) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v20_0) S1024x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v20_1) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x4096 : Shape := ⟨2, ![8192, 4096]⟩
abbrev S2x4096x1 : Shape := ⟨3, ![2, 4096, 1]⟩
abbrev S1x4096x1 : Shape := ⟨3, ![1, 4096, 1]⟩
abbrev S4096x1 : Shape := ⟨2, ![4096, 1]⟩
abbrev S_ : Shape := ⟨0, ![]⟩
abbrev S1 : Shape := ⟨1, ![1]⟩
abbrev S1x1 : Shape := ⟨2, ![1, 1]⟩
abbrev S1x4096 : Shape := ⟨2, ![1, 4096]⟩
abbrev S4096x4096 : Shape := ⟨2, ![4096, 4096]⟩
abbrev S8192x1x4096 : Shape := ⟨3, ![8192, 1, 4096]⟩

abbrev nBuf : Space → Nat
  | .hbm => 33
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S2x4096x1, .f32⟩
  | .hbm, ⟨3, _⟩ => ⟨S1x4096x1, .f32⟩
  | .hbm, ⟨4, _⟩ => ⟨S4096x1, .f32⟩
  | .hbm, ⟨5, _⟩ => ⟨S1x4096x1, .f32⟩
  | .hbm, ⟨6, _⟩ => ⟨S4096x1, .f32⟩
  | .hbm, ⟨7, _⟩ => ⟨S4096x1, .f32⟩
  | .hbm, ⟨8, _⟩ => ⟨S_, .f32⟩
  | .hbm, ⟨9, _⟩ => ⟨S1, .f32⟩
  | .hbm, ⟨10, _⟩ => ⟨S1, .f32⟩
  | .hbm, ⟨11, _⟩ => ⟨S1x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S1, .f32⟩
  | .hbm, ⟨17, _⟩ => ⟨S1, .f32⟩
  | .hbm, ⟨18, _⟩ => ⟨S1x1, .f32⟩
  | .hbm, ⟨19, _⟩ => ⟨S4096x1, .f32⟩
  | .hbm, ⟨20, _⟩ => ⟨S4096x1, .f32⟩
  | .hbm, ⟨21, _⟩ => ⟨S1x4096, .f32⟩
  | .hbm, ⟨22, _⟩ => ⟨S4096x4096, .f32⟩
  | .hbm, ⟨23, _⟩ => ⟨S1x4096, .f32⟩
  | .hbm, ⟨24, _⟩ => ⟨S4096x4096, .f32⟩
  | .hbm, ⟨25, _⟩ => ⟨S8192x4096, .f32⟩
  | .hbm, ⟨26, _⟩ => ⟨S8192x4096, .f32⟩
  | .hbm, ⟨27, _⟩ => ⟨S8192x4096, .f32⟩
  | .hbm, ⟨28, _⟩ => ⟨S8192x4096, .f32⟩
  | .hbm, ⟨29, _⟩ => ⟨S8192x4096, .f32⟩
  | .hbm, ⟨30, _⟩ => ⟨S8192x4096, .f32⟩
  | .hbm, ⟨31, _⟩ => ⟨S8192x1x4096, .f32⟩
  | .hbm, ⟨32, _⟩ => ⟨S8192x1x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  slices_S2x4096x1_S1x4096x1_0_0_0 : S2x4096x1.Slices ![0, 0, 0] S1x4096x1
  shapeCasts_S1x4096x1_S4096x1 : S1x4096x1.ShapeCasts S4096x1
  slices_S2x4096x1_S1x4096x1_1_0_0 : S2x4096x1.Slices ![1, 0, 0] S1x4096x1
  reducesTo_S4096x1_S1_d0 : S4096x1.ReducesTo [0] S1
  h_S_ : 0 < S_.numel
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  transposes_S4096x1_S1x4096_1_0 : S4096x1.Transposes [1, 0] S1x4096
  bcast_S8192x4096_S8192x1x4096_0_2 : S8192x4096.BroadcastsInDim S8192x1x4096 (![0, 2] : Fin 2 → Fin S8192x1x4096.rank)
  dot_S4096x1_S1x4096_S4096x4096_1_0_0_1_n_n_wf : DotDims.WF S4096x1 S1x4096 S4096x4096 [1] [0] [0] [1] [] []
  dot_S8192x4096_S4096x4096_S8192x4096_1_0_0_1_n_n_wf : DotDims.WF S8192x4096 S4096x4096 S8192x4096 [1] [0] [0] [1] [] []

variable [Facts₀]

def dot_S4096x1_S1x4096_S4096x4096_1_0_0_1_n_n : DotDims S4096x1 S1x4096 S4096x4096 where
  lhsContracting := [1]
  rhsContracting := [0]
  lhsNonContracting := [0]
  rhsNonContracting := [1]
  lhsBatch := []
  rhsBatch := []
  wf := dot_S4096x1_S1x4096_S4096x4096_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Spec.lean ====
/-
  What both programs compute, as functions of the three argument arrays over the extended reals.

  The projector holds two columns of length 4096. Each column v is divided by its Euclidean norm, the square root of
  the sum of its squared entries, and the outer product of the normalised column with itself is a 4096 × 4096
  matrix: `matRe` from the first column, `matIm` from the second. The results are the complex product
  (x + iy)(P + iQ) taken row by row: real part x·P − y·Q, imaginary part x·Q + y·P, each with a unit axis
  inserted in the middle.
-/
import proofs.«145184_j85813446574645_1_alg».proof.Proof.Gen.ReferenceIdeal
import Idealize.ShloMosaic.PureOps.Ideal

noncomputable section

namespace Cert.Spec

open Idealize.ShloMosaic Cert.ReferenceIdeal Cert.ReferenceIdeal.Facts₀

/-- One column of the projector, as a 4096 × 1 array. -/
def col (off : Fin 3 → ℕ) (hs : S2x4096x1.Slices off S1x4096x1) (p : FVec Ideal S2x4096x1 .f32) :
    FVec Ideal S4096x1 .f32 :=
  shapeCast S4096x1 (extractStridedSlice S1x4096x1 off p hs) shapeCasts_S1x4096x1_S4096x1

/-- The Euclidean norm of a column: the square root of the sum of its squared entries. -/
def norm (v : FVec Ideal S4096x1 .f32) : FVec Ideal S1 .f32 :=
  Host.sqrt (F := Ideal) (Host.reduceAdd (F := Ideal) (mulf v v) (constant (F := Ideal) S_ .f32 0x00000000#32)
    reducesTo_S4096x1_S1_d0 h_S_)

/-- A column divided, entry by entry, by its norm. -/
def unitCol (v : FVec Ideal S4096x1 .f32) : FVec Ideal S4096x1 .f32 :=
  Host.divf (F := Ideal) v
    (broadcastInDim S4096x1 ![0, 1] bcast_S1x1_S4096x1_0_1 (broadcastInDim S1x1 ![1] bcast_S1_S1x1_1 (norm v)))

/-- The outer product of a column with itself. -/
def outer (u : FVec Ideal S4096x1 .f32) : FVec Ideal S4096x4096 .f32 :=
  Host.dotGeneral (F := Ideal) dot_S4096x1_S1x4096_S4096x4096_1_0_0_1_n_n none u
    (transpose S1x4096 [1, 0] u transposes_S4096x1_S1x4096_1_0)

/-- The projection matrix of the projector's first column. -/
def matRe (p : FVec Ideal S2x4096x1 .f32) : FVec Ideal S4096x4096 .f32 :=
  outer (unitCol (col ![0, 0, 0] slices_S2x4096x1_S1x4096x1_0_0_0 p))

/-- The projection matrix of the projector's second column. -/
def matIm (p : FVec Ideal S2x4096x1 .f32) : FVec Ideal S4096x4096 .f32 :=
  outer (unitCol (col ![1, 0, 0] slices_S2x4096x1_S1x4096x1_1_0_0 p))

/-- The product of an 8192 × 4096 array by a 4096 × 4096 matrix. -/
def prod (v : FVec Ideal S8192x4096 .f32) (M : FVec Ideal S4096x4096 .f32) : FVec Ideal S8192x4096 .f32 :=
  Host.dotGeneral (F := Ideal) dot_S8192x4096_S4096x4096_S8192x4096_1_0_0_1_n_n none v M

/-- The last step of both programs: a unit axis inserted between the two axes. -/
def tail (x : FVec Ideal S8192x4096 .f32) : FVec Ideal S8192x1x4096 .f32 :=
  broadcastInDim S8192x1x4096 ![0, 2] bcast_S8192x4096_S8192x1x4096_0_2 x

/-- The real part before the tail: x·P − y·Q. -/
def re (x y : FVec Ideal S8192x4096 .f32) (p : FVec Ideal S2x4096x1 .f32) : FVec Ideal S8192x4096 .f32 :=
  subf (prod x (matRe p)) (prod y (matIm p))

/-- The imaginary part before the tail: x·Q + y·P. -/
def im (x y : FVec Ideal S8192x4096 .f32) (p : FVec Ideal S2x4096x1 .f32) : FVec Ideal S8192x4096 .f32 :=
  addf (prod x (matIm p)) (prod y (matRe p))

end Cert.Spec

end
-- ==== Proof.Blocks.lean ====
/-
  What the kernel's blocks are, in terms of the argument arrays.

  The grid has 8 × 4 × 8 points; point t has row block t / 32, column block t / 8 % 4 and step t % 8 along the
  contracted axis. When the kernel is launched the two staged argument arrays are the arguments themselves (a change
  of float format is the identity over the extended reals) and the two staged matrices are the projection matrices
  of the projector's two columns. At point t the kernel sees rows (t / 32)·1024 … of the two arguments, restricted to
  columns (t % 8)·512 …, and rows (t % 8)·512 … of the two matrices, restricted to columns (t / 8 % 4)·1024 ….
-/
import proofs.«145184_j85813446574645_1_alg».proof.Proof.Gen.KernelIdeal.Frame
import proofs.«145184_j85813446574645_1_alg».proof.Proof.Spec
import Idealize.ShloMosaic.Lib.Pipeline.Value
import Idealize.ShloMosaic.Lib.StableHlo.Run
import Idealize.ShloMosaic.Lib.Tactic
import Idealize.ShloMosaic.Lib.ValueIdx

noncomputable section

namespace Cert.KernelIdeal.Blocks

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

/-! ## The argument arrays, and the staged arrays when the kernel is launched -/

/-- The first argument array. -/
abbrev argX (c : Dev nD) : FVec Ideal S8192x4096 .f32 := m ((c : Thread nD τ).loc main_arg0)
/-- The second argument array. -/
abbrev argY (c : Dev nD) : FVec Ideal S8192x4096 .f32 := m ((c : Thread nD τ).loc main_arg1)
/-- The projector. -/
abbrev argP (c : Dev nD) : FVec Ideal S2x4096x1 .f32 := m ((c : Thread nD τ).loc main_arg2)

theorem entry_x (c : Dev nD) : (V m c main_v18 : S8192x4096.Idx → EReal) = argX m c := by
  dsimp only [V, V0]
  simp only [hostOps0, hostOps0_1, hostOps0_2, hostOps0_3, hostOps0_4, List.flatten_cons, List.flatten_nil, List.append_nil, List.cons_append, List.nil_append]
  after_results
  rfl

theorem entry_y (c : Dev nD) : (V m c main_v19 : S8192x4096.Idx → EReal) = argY m c := by
  dsimp only [V, V0]
  simp only [hostOps0, hostOps0_1, hostOps0_2, hostOps0_3, hostOps0_4, List.flatten_cons, List.flatten_nil, List.append_nil, List.cons_append, List.nil_append]
  after_results
  rfl

theorem entry_P (c : Dev nD) : (V m c main_v14 : S4096x4096.Idx → EReal) = Cert.Spec.matRe (argP m c) := by
  dsimp only [V, V0]
  simp only [hostOps0, hostOps0_1, hostOps0_2, hostOps0_3, hostOps0_4, List.flatten_cons, List.flatten_nil, List.append_nil, List.cons_append, List.nil_append]
  after_results
  rfl

theorem entry_Q (c : Dev nD) : (V m c main_v17 : S4096x4096.Idx → EReal) = Cert.Spec.matIm (argP m c) := by
  dsimp only [V, V0]
  simp only [hostOps0, hostOps0_1, hostOps0_2, hostOps0_3, hostOps0_4, List.flatten_cons, List.flatten_nil, List.append_nil, List.cons_append, List.nil_append]
  after_results
  rfl

/-! ## The index maps over the grid -/

theorem idx0 : ∀ t : Fin cfg0.N, win0_0.index t (0 : Fin 2) = t.val / 32 ∧ win0_0.index t (1 : Fin 2) = t.val % 8 :=
  (by decide +kernel : ∀ t : Fin grid0.N, _)
theorem idx1 : ∀ t : Fin cfg0.N, win0_1.index t (0 : Fin 2) = t.val / 32 ∧ win0_1.index t (1 : Fin 2) = t.val % 8 :=
  (by decide +kernel : ∀ t : Fin grid0.N, _)
theorem idx2 : ∀ t : Fin cfg0.N, win0_2.index t (0 : Fin 2) = t.val % 8 ∧ win0_2.index t (1 : Fin 2) = t.val / 8 % 4 :=
  (by decide +kernel : ∀ t : Fin grid0.N, _)
theorem idx3 : ∀ t : Fin cfg0.N, win0_3.index t (0 : Fin 2) = t.val % 8 ∧ win0_3.index t (1 : Fin 2) = t.val / 8 % 4 :=
  (by decide +kernel : ∀ t : Fin grid0.N, _)
theorem idx4 : ∀ t : Fin cfg0.N, win0_4.index t (0 : Fin 2) = t.val / 32 ∧ win0_4.index t (1 : Fin 2) = t.val / 8 % 4 :=
  (by decide +kernel : ∀ t : Fin grid0.N, _)
theorem idx5 : ∀ t : Fin cfg0.N, win0_5.index t (0 : Fin 2) = t.val / 32 ∧ win0_5.index t (1 : Fin 2) = t.val / 8 % 4 :=
  (by decide +kernel : ∀ t : Fin grid0.N, _)

/-- Row a of row block t / 32 is a row of the arrays. -/
theorem row_lt (t : Fin cfg0.N) (a : Fin 1024) : t.val / 32 * 1024 + a.val < 8192 := by
  have := t.isLt; have hN : cfg0.N = 256 := N_0; have := a.isLt; omega
/-- Position k of step t % 8 is a position of the contracted axis. -/
theorem mid_lt (t : Fin cfg0.N) (k : Fin 512) : t.val % 8 * 512 + k.val < 4096 := by
  have := k.isLt; omega
/-- Column b of column block t / 8 % 4 is a column of the arrays. -/
theorem col_lt (t : Fin cfg0.N) (b : Fin 1024) : t.val / 8 % 4 * 1024 + b.val < 4096 := by
  have := b.isLt; omega

/-! ## The input blocks at a point -/

/-- The block of the first argument at point t. -/
abbrev bx (c : Dev nD) (t : Fin cfg0.N) : FVec Ideal S1024x512 .bf16 := iblk m c 0 t
/-- The block of the second argument at point t. -/
abbrev bY (c : Dev nD) (t : Fin cfg0.N) : FVec Ideal S1024x512 .bf16 := iblk m c 1 t
/-- The block of the first projection matrix at point t. -/
abbrev bP (c : Dev nD) (t : Fin cfg0.N) : FVec Ideal S512x1024 .bf16 := iblk m c 2 t
/-- The block of the second projection matrix at point t. -/
abbrev bQ (c : Dev nD) (t : Fin cfg0.N) : FVec Ideal S512x1024 .bf16 := iblk m c 3 t

theorem bx_apply (c : Dev nD) (t : Fin cfg0.N) (a : Fin 1024) (k : Fin 512) :
    bx m c t (ix2 a k) = argX m c (ix2 ⟨t.val / 32 * 1024 + a.val, row_lt t a⟩ ⟨t.val % 8 * 512 + k.val, mid_lt t k⟩) := by
  rw [← entry_x]
  unfold bx iblk
  rw [View.read_apply]
  show V m c main_v18 _ = V m c main_v18 _
  congr 1
  funext ax
  apply Fin.ext
  match ax with
  | ⟨0, _⟩ => show win0_0.index t 0 * 1024 + 1 * a.val = t.val / 32 * 1024 + a.val; rw [(idx0 t).1]; omega
  | ⟨1, _⟩ => show win0_0.index t 1 * 512 + 1 * k.val = t.val % 8 * 512 + k.val; rw [(idx0 t).2]; omega

theorem bY_apply (c : Dev nD) (t : Fin cfg0.N) (a : Fin 1024) (k : Fin 512) :
    bY m c t (ix2 a k) = argY m c (ix2 ⟨t.val / 32 * 1024 + a.val, row_lt t a⟩ ⟨t.val % 8 * 512 + k.val, mid_lt t k⟩) := by
  rw [← entry_y]
  unfold bY iblk
  rw [View.read_apply]
  show V m c main_v19 _ = V m c main_v19 _
  congr 1
  funext ax
  apply Fin.ext
  match ax with
  | ⟨0, _⟩ => show win0_1.index t 0 * 1024 + 1 * a.val = t.val / 32 * 1024 + a.val; rw [(idx1 t).1]; omega
  | ⟨1, _⟩ => show win0_1.index t 1 * 512 + 1 * k.val = t.val % 8 * 512 + k.val; rw [(idx1 t).2]; omega

theorem bP_apply (c : Dev nD) (t : Fin cfg0.N) (k : Fin 512) (b : Fin 1024) :
    bP m c t (ix2 k b)
      = Cert.Spec.matRe (argP m c) (ix2 ⟨t.val % 8 * 512 + k.val, mid_lt t k⟩ ⟨t.val / 8 % 4 * 1024 + b.val, col_lt t b⟩) := by
  rw [← entry_P]
  unfold bP iblk
  rw [View.read_apply]
  show V m c main_v14 _ = V m c main_v14 _
  congr 1
  funext ax
  apply Fin.ext
  match ax with
  | ⟨0, _⟩ => show win0_2.index t 0 * 512 + 1 * k.val = t.val % 8 * 512 + k.val; rw [(idx2 t).1]; omega
  | ⟨1, _⟩ => show win0_2.index t 1 * 1024 + 1 * b.val = t.val / 8 % 4 * 1024 + b.val; rw [(idx2 t).2]; omega

theorem bQ_apply (c : Dev nD) (t : Fin cfg0.N) (k : Fin 512) (b : Fin 1024) :
    bQ m c t (ix2 k b)
      = Cert.Spec.matIm (argP m c) (ix2 ⟨t.val % 8 * 512 + k.val, mid_lt t k⟩ ⟨t.val / 8 % 4 * 1024 + b.val, col_lt t b⟩) := by
  rw [← entry_Q]
  unfold bQ iblk
  rw [View.read_apply]
  show V m c main_v17 _ = V m c main_v17 _
  congr 1
  funext ax
  apply Fin.ext
  match ax with
  | ⟨0, _⟩ => show win0_3.index t 0 * 512 + 1 * k.val = t.val % 8 * 512 + k.val; rw [(idx3 t).1]; omega
  | ⟨1, _⟩ => show win0_3.index t 1 * 1024 + 1 * b.val = t.val / 8 % 4 * 1024 + b.val; rw [(idx3 t).2]; omega

end Cert.KernelIdeal.Blocks

end
-- ==== Proof.Pieces.lean ====
import proofs.«145184_j85813446574645_1_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

/-- The origin of a two-axis block, written as a pair, is the constant zero offset. -/
theorem hz : (![0, 0] : Fin 2 → Nat) = fun _ => 0 := funext fun a => by fin_cases a <;> rfl

/-- At the first step along the contracted axis the real accumulator is reset to zero and then takes the step's update. -/
theorem accRe_first (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1024 .f32) (harg10 : arg10.IsWhole) (hc0 : cond0_0 i) (hc1 : ¬cond0_1 i)
    (x0 : Vec F S1024x512 .bf16) (x1 : Vec F S1024x512 .bf16) (x2 : Vec F S512x1024 .bf16) (x3 : Vec F S512x1024 .bf16) :
    sout0_A_0 c i arg3 harg3 arg4 harg4 arg5 harg5 arg6 harg6 arg7 harg7 arg8 harg8 arg9 harg9 arg10 harg10 hc0 hc1 x0 x1 x2 x3 = k0_pay7 x0 x1 x2 x3 (k0_pay1 (F := F)) := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3)]
  unfold kernelRun0_A
  dsimp only
  sl_unfold_words
  -- two whole-block stores, the later covering the earlier: the update, whose accumulator operand is the zero block read back
  rw [View.canon_cons_unit_zero (S := S1024x1024) hz, View.readCov_unit_zero (S := S1024x1024) _ hz]
  simp only [View.readAt_eq_ld, harg3.read_unread, harg4.read_unread, harg5.read_unread, harg6.read_unread, harg9.read_unread, harg10.read_unread, View.ld_unit_zero (S := S1024x512) hz, View.ld_unit_zero (S := S512x1024) hz, View.ld_unit_zero (S := S1024x1024) hz, shapeCast_self]

/-- The same for the imaginary accumulator. -/
theorem accIm_first (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1024 .f32) (harg10 : arg10.IsWhole) (hc0 : cond0_0 i) (hc1 : ¬cond0_1 i)
    (x0 : Vec F S1024x512 .bf16) (x1 : Vec F S1024x512 .bf16) (x2 : Vec F S512x1024 .bf16) (x3 : Vec F S512x1024 .bf16) :
    sout0_A_1 c i arg3 harg3 arg4 harg4 arg5 harg5 arg6 harg6 arg7 harg7 arg8 harg8 arg9 harg9 arg10 harg10 hc0 hc1 x0 x1 x2 x3 = k0_pay8 x0 x1 x2 x3 (k0_pay2 (F := F)) := by
  unfold sout0_A_1
  rw [View.read_writes_eq_canon _ _ _ (scover0_A_1 c i arg3 harg3 arg4 harg4 arg5 harg5 arg6 harg6 arg7 harg7 arg8 harg8 arg9 harg9 arg10 harg10 hc0 hc1 x0 x1 x2 x3)]
  unfold kernelRun0_A
  dsimp only
  sl_unfold_words
  -- two whole-block stores, the later covering the earlier: the update, whose accumulator operand is the zero block read back
  rw [View.canon_cons_unit_zero (S := S1024x1024) hz, View.readCov_unit_zero (S := S1024x1024) _ hz]
  simp only [View.readAt_eq_ld, harg3.read_unread, harg4.read_unread, harg5.read_unread, harg6.read_unread, harg9.read_unread, harg10.read_unread, View.ld_unit_zero (S := S1024x512) hz, View.ld_unit_zero (S := S512x1024) hz, View.ld_unit_zero (S := S1024x1024) hz, shapeCast_self]

/-- At a middle step the real accumulator takes the step's update over what the step before left. -/
theorem accRe_mid (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1024 .f32) (harg10 : arg10.IsWhole) (hc0 : ¬cond0_0 i) (hc1 : ¬cond0_1 i)
    (x0 : Vec F S1024x512 .bf16) (x1 : Vec F S1024x512 .bf16) (x2 : Vec F S512x1024 .bf16) (x3 : Vec F S512x1024 .bf16) (xs0 : Vec F S1024x1024 .f32) (xs1 : Vec F S1024x1024 .f32) :
    sout0_B_0 c i arg3 harg3 arg4 harg4 arg5 harg5 arg6 harg6 arg7 harg7 arg8 harg8 arg9 harg9 arg10 harg10 hc0 hc1 x0 x1 x2 x3 xs0 xs1 = k0_pay7 x0 x1 x2 x3 xs0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 xs0 xs1)]
  unfold kernelRun0_B
  dsimp only
  sl_unfold_words
  -- one whole-block store: the update, whose operands are the whole blocks as they stood
  rw [View.canon_unit_zero hz]
  simp only [View.readAt_eq_ld, harg3.read_unread, harg4.read_unread, harg5.read_unread, harg6.read_unread, harg9.read_unread, harg10.read_unread, View.ld_unit_zero (S := S1024x512) hz, View.ld_unit_zero (S := S512x1024) hz, View.ld_unit_zero (S := S1024x1024) hz, shapeCast_self]

/-- The same for the imaginary accumulator. -/
theorem accIm_mid (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1024 .f32) (harg10 : arg10.IsWhole) (hc0 : ¬cond0_0 i) (hc1 : ¬cond0_1 i)
    (x0 : Vec F S1024x512 .bf16) (x1 : Vec F S1024x512 .bf16) (x2 : Vec F S512x1024 .bf16) (x3 : Vec F S512x1024 .bf16) (xs0 : Vec F S1024x1024 .f32) (xs1 : Vec F S1024x1024 .f32) :
    sout0_B_1 c i arg3 harg3 arg4 harg4 arg5 harg5 arg6 harg6 arg7 harg7 arg8 harg8 arg9 harg9 arg10 harg10 hc0 hc1 x0 x1 x2 x3 xs0 xs1 = k0_pay8 x0 x1 x2 x3 xs1 := by
  unfold sout0_B_1
  rw [View.read_writes_eq_canon _ _ _ (scover0_B_1 c i arg3 harg3 arg4 harg4 arg5 harg5 arg6 harg6 arg7 harg7 arg8 harg8 arg9 harg9 arg10 harg10 hc0 hc1 x0 x1 x2 x3 xs0 xs1)]
  unfold kernelRun0_B
  dsimp only
  sl_unfold_words
  -- one whole-block store: the update, whose operands are the whole blocks as they stood
  rw [View.canon_unit_zero hz]
  simp only [View.readAt_eq_ld, harg3.read_unread, harg4.read_unread, harg5.read_unread, harg6.read_unread, harg9.read_unread, harg10.read_unread, View.ld_unit_zero (S := S1024x512) hz, View.ld_unit_zero (S := S512x1024) hz, View.ld_unit_zero (S := S1024x1024) hz, shapeCast_self]

/-- At the last step the real accumulator takes the step's update as at a middle step. -/
theorem accRe_last (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1024 .f32) (harg10 : arg10.IsWhole) (hc0 : ¬cond0_0 i) (hc1 : cond0_1 i)
    (x0 : Vec F S1024x512 .bf16) (x1 : Vec F S1024x512 .bf16) (x2 : Vec F S512x1024 .bf16) (x3 : Vec F S512x1024 .bf16) (xs0 : Vec F S1024x1024 .f32) (xs1 : Vec F S1024x1024 .f32) :
    sout0_C_0 c i arg3 harg3 arg4 harg4 arg5 harg5 arg6 harg6 arg7 harg7 arg8 harg8 arg9 harg9 arg10 harg10 hc0 hc1 x0 x1 x2 x3 xs0 xs1 = k0_pay7 x0 x1 x2 x3 xs0 := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 xs0 xs1)]
  unfold kernelRun0_C
  dsimp only
  sl_unfold_words
  -- one whole-block store: the update, whose operands are the whole blocks as they stood
  rw [View.canon_unit_zero hz]
  simp only [View.readAt_eq_ld, harg3.read_unread, harg4.read_unread, harg5.read_unread, harg6.read_unread, harg9.read_unread, harg10.read_unread, View.ld_unit_zero (S := S1024x512) hz, View.ld_unit_zero (S := S512x1024) hz, View.ld_unit_zero (S := S1024x1024) hz, shapeCast_self]

/-- The same for the imaginary accumulator. -/
theorem accIm_last (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1024 .f32) (harg10 : arg10.IsWhole) (hc0 : ¬cond0_0 i) (hc1 : cond0_1 i)
    (x0 : Vec F S1024x512 .bf16) (x1 : Vec F S1024x512 .bf16) (x2 : Vec F S512x1024 .bf16) (x3 : Vec F S512x1024 .bf16) (xs0 : Vec F S1024x1024 .f32) (xs1 : Vec F S1024x1024 .f32) :
    sout0_C_1 c i arg3 harg3 arg4 harg4 arg5 harg5 arg6 harg6 arg7 harg7 arg8 harg8 arg9 harg9 arg10 harg10 hc0 hc1 x0 x1 x2 x3 xs0 xs1 = k0_pay8 x0 x1 x2 x3 xs1 := by
  unfold sout0_C_1
  rw [View.read_writes_eq_canon _ _ _ (scover0_C_1 c i arg3 harg3 arg4 harg4 arg5 harg5 arg6 harg6 arg7 harg7 arg8 harg8 arg9 harg9 arg10 harg10 hc0 hc1 x0 x1 x2 x3 xs0 xs1)]
  unfold kernelRun0_C
  dsimp only
  sl_unfold_words
  -- one whole-block store: the update, whose operands are the whole blocks as they stood
  rw [View.canon_unit_zero hz]
  simp only [View.readAt_eq_ld, harg3.read_unread, harg4.read_unread, harg5.read_unread, harg6.read_unread, harg9.read_unread, harg10.read_unread, View.ld_unit_zero (S := S1024x512) hz, View.ld_unit_zero (S := S512x1024) hz, View.ld_unit_zero (S := S1024x1024) hz, shapeCast_self]

/-- At the last step the real output block is the real accumulator's final contents. -/
theorem outRe_last (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1024 .f32) (harg10 : arg10.IsWhole) (hc0 : ¬cond0_0 i) (hc1 : cond0_1 i)
    (x0 : Vec F S1024x512 .bf16) (x1 : Vec F S1024x512 .bf16) (x2 : Vec F S512x1024 .bf16) (x3 : Vec F S512x1024 .bf16) (xs0 : Vec F S1024x1024 .f32) (xs1 : Vec F S1024x1024 .f32) :
    out0_C_4 c i arg3 harg3 arg4 harg4 arg5 harg5 arg6 harg6 arg7 harg7 arg8 harg8 arg9 harg9 arg10 harg10 hc0 hc1 x0 x1 x2 x3 xs0 xs1 = k0_pay7 x0 x1 x2 x3 xs0 := by
  unfold out0_C_4
  rw [View.read_writes_eq_canon _ _ _ (cover0_C_4 c i arg3 harg3 arg4 harg4 arg5 harg5 arg6 harg6 arg7 harg7 arg8 harg8 arg9 harg9 arg10 harg10 hc0 hc1 x0 x1 x2 x3 xs0 xs1)]
  unfold kernelRun0_C
  dsimp only
  sl_unfold_words
  -- one whole-block store of what the accumulator holds after its own update, read back whole
  rw [View.canon_unit_zero hz]
  simp only [View.readAt_eq_ld, harg3.read_unread, harg4.read_unread, harg5.read_unread, harg6.read_unread, harg9.read_unread, harg10.read_unread, View.readCov_unit_zero (S := S1024x1024) _ hz, View.ld_unit_zero (S := S1024x512) hz, View.ld_unit_zero (S := S512x1024) hz, View.ld_unit_zero (S := S1024x1024) hz, shapeCast_self]

/-- At the last step the imaginary output block is the imaginary accumulator's final contents. -/
theorem outIm_last (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1024x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x1024 .f32) (harg10 : arg10.IsWhole) (hc0 : ¬cond0_0 i) (hc1 : cond0_1 i)
    (x0 : Vec F S1024x512 .bf16) (x1 : Vec F S1024x512 .bf16) (x2 : Vec F S512x1024 .bf16) (x3 : Vec F S512x1024 .bf16) (xs0 : Vec F S1024x1024 .f32) (xs1 : Vec F S1024x1024 .f32) :
    out0_C_5 c i arg3 harg3 arg4 harg4 arg5 harg5 arg6 harg6 arg7 harg7 arg8 harg8 arg9 harg9 arg10 harg10 hc0 hc1 x0 x1 x2 x3 xs0 xs1 = k0_pay8 x0 x1 x2 x3 xs1 := by
  unfold out0_C_5
  rw [View.read_writes_eq_canon _ _ _ (cover0_C_5 c i arg3 harg3 arg4 harg4 arg5 harg5 arg6 harg6 arg7 harg7 arg8 harg8 arg9 harg9 arg10 harg10 hc0 hc1 x0 x1 x2 x3 xs0 xs1)]
  unfold kernelRun0_C
  dsimp only
  sl_unfold_words
  -- one whole-block store of what the accumulator holds after its own update, read back whole
  rw [View.canon_unit_zero hz]
  simp only [View.readAt_eq_ld, harg3.read_unread, harg4.read_unread, harg5.read_unread, harg6.read_unread, harg9.read_unread, harg10.read_unread, View.readCov_unit_zero (S := S1024x1024) _ hz, View.ld_unit_zero (S := S1024x512) hz, View.ld_unit_zero (S := S512x1024) hz, View.ld_unit_zero (S := S1024x1024) hz, shapeCast_self]

end Cert.KernelIdeal.Pieces

end
-- ==== Proof.LibPlainMatmul.lean ====
/-
  The product of an M × K matrix by a K × N matrix read at one element, for the vector unit's product accumulated into
  a zero matrix: row e, column j is the sum over k of the left matrix at (e, k) times the right matrix at (k, j). At
  the ideal values.
-/
import Idealize.ShloMosaic.PureOps.Ideal.Laws
import Idealize.ShloMosaic.Lib.ValueIdx
import Idealize.ShloMosaic.Lib.KernelVsHost
import Idealize.ShloMosaic.Lib.StackMember

noncomputable section

open Idealize.ShloMosaic Idealize.ShloMosaic.ValueIdx

namespace Cert.LibPlainMatmul

/-- The product accumulated into a zero matrix, at row e and column j. -/
theorem matmul_plain_apply {M K N : ℕ} {φ₁ φ₂ : FTy} (prec : Option ContractPrecision)
    (l : FVec Ideal ⟨2, ![M, K]⟩ φ₁) (r : FVec Ideal ⟨2, ![K, N]⟩ φ₂) (e : Fin M) (j : Fin N) :
    matmul (DotDims.plain M K N) prec l r (constant (⟨2, ![M, N]⟩ : Shape) .f32 0x00000000#32) (ix2 e j)
      = ∑ k : Fin K, l (ix2 e k) * r (ix2 k j) := by
  rw [matmul_zero_eq_dotGeneral]
  exact StackMember.dotGeneral_plain_apply prec l r e j

/-- The host's product, at row e and column j. -/
theorem dotGeneral_plain_apply {M K N : ℕ} {φ₁ φ₂ : FTy} (prec : Option ContractPrecision)
    (l : FVec Ideal ⟨2, ![M, K]⟩ φ₁) (r : FVec Ideal ⟨2, ![K, N]⟩ φ₂) (e : Fin M) (j : Fin N) :
    Host.dotGeneral (DotDims.plain M K N) prec l r (ix2 e j) = ∑ k : Fin K, l (ix2 e k) * r (ix2 k j) :=
  StackMember.dotGeneral_plain_apply prec l r e j

end Cert.LibPlainMatmul

end
-- ==== Proof.Payload.lean ====
/-
  One step's update of the two accumulators, read at one entry over the extended reals.

  With x, y the step's 1024 × 512 blocks of the two argument arrays and P, Q its 512 × 1024 blocks of the two projection
  matrices, the real accumulator gains (x·P − y·Q) and the imaginary one (x·Q + y·P), each product taken into a zero
  matrix: at row a and column b a product is the sum over the 512 contracted positions of the products of the entries.
-/
import proofs.«145184_j85813446574645_1_alg».proof.Proof.Gen.KernelIdeal.Skeleton
import proofs.«145184_j85813446574645_1_alg».proof.Proof.LibPlainMatmul
import Idealize.ShloMosaic.Lib.ValueIdx
import Idealize.ShloMosaic.Lib.Pipeline.Value

noncomputable section

namespace Cert.KernelIdeal.Payload

open Idealize.ShloMosaic Idealize.ShloMosaic.ValueIdx Cert.KernelIdeal Cert.KernelIdeal.Gen

/-- The product of a step's blocks into a zero matrix, at one entry. -/
theorem blockProduct_apply (l : FVec Ideal S1024x512 .bf16) (r : FVec Ideal S512x1024 .bf16) (a b : Fin 1024) :
    matmul (F := Ideal) dot_S1024x512_S512x1024_S1024x1024_1_0_0_1_n_n none l r
        (constant (F := Ideal) S1024x1024 .f32 0x00000000#32) (ix2 a b)
      = ∑ k : Fin 512, l (ix2 a k) * r (ix2 k b) :=
  Cert.LibPlainMatmul.matmul_plain_apply (M := 1024) (K := 512) (N := 1024) none l r a b

/-- The real accumulator after a step, at one entry: what it held plus (x·P − y·Q) there. -/
theorem stepRe_apply (x y : FVec Ideal S1024x512 .bf16) (pm qm : FVec Ideal S512x1024 .bf16)
    (acc : FVec Ideal S1024x1024 .f32) (a b : Fin 1024) :
    k0_pay7 (F := Ideal) x y pm qm acc (ix2 a b)
      = acc (ix2 a b) + ((∑ k : Fin 512, x (ix2 a k) * pm (ix2 k b)) - (∑ k : Fin 512, y (ix2 a k) * qm (ix2 k b))) := by
  unfold k0_pay7 k0_pay3 k0_pay4 k0_pay5 k0_pay6
  simp only [shapeCast_self]
  rw [addf_apply, subf_apply, blockProduct_apply, blockProduct_apply]

/-- The imaginary accumulator after a step, at one entry: what it held plus (x·Q + y·P) there. -/
theorem stepIm_apply (x y : FVec Ideal S1024x512 .bf16) (pm qm : FVec Ideal S512x1024 .bf16)
    (acc : FVec Ideal S1024x1024 .f32) (a b : Fin 1024) :
    k0_pay8 (F := Ideal) x y pm qm acc (ix2 a b)
      = acc (ix2 a b) + ((∑ k : Fin 512, x (ix2 a k) * qm (ix2 k b)) + (∑ k : Fin 512, y (ix2 a k) * pm (ix2 k b))) := by
  unfold k0_pay8 k0_pay3 k0_pay4 k0_pay5 k0_pay6
  simp only [shapeCast_self]
  rw [addf_apply, addf_apply, blockProduct_apply, blockProduct_apply]

/-- The zero matrix the accumulators are reset to, at one entry. -/
theorem zeroRe_apply (a b : Fin 1024) : k0_pay1 (F := Ideal) (ix2 a b) = 0 := by
  unfold k0_pay1
  simp only [shapeCast_self]
  exact Ideal.ofBits_zero_f32

theorem zeroIm_apply (a b : Fin 1024) : k0_pay2 (F := Ideal) (ix2 a b) = 0 := by
  unfold k0_pay2
  simp only [shapeCast_self]
  exact Ideal.ofBits_zero_f32

end Cert.KernelIdeal.Payload

end
-- ==== Proof.LibBlockSums.lean ====
/-
  Sums over the first rows of consecutive blocks of equal height: the first (s + 1) * B rows are the first s * B rows
  followed by the B rows of block s; no blocks give the empty sum; and a sum over an initial segment of the naturals
  depends only on the segment's length.
-/
import Mathlib.Algebra.BigOperators.Fin

namespace Cert.LibBlockSums

variable {M : Type*} [AddCommMonoid M]

/-- A sum over the naturals below n depends only on the number n, not on how it is written. -/
theorem sum_cast {n n' : Nat} (h : n = n') (f : Nat → M) : ∑ r : Fin n, f r.val = ∑ r : Fin n', f r.val := by
  subst h
  rfl

/-- The naturals below a + b are those below a followed by a + r for r below b. -/
theorem sum_add (a b : Nat) (f : Nat → M) :
    ∑ r : Fin (a + b), f r.val = ∑ r : Fin a, f r.val + ∑ r : Fin b, f (a + r.val) := by
  rw [Fin.sum_univ_add]
  rfl

/-- The first s + 1 blocks of B rows are the first s blocks followed by the rows s * B + r, r below B, of block s. -/
theorem sum_blocks_succ (B s : Nat) (f : Nat → M) :
    ∑ r : Fin ((s + 1) * B), f r.val = ∑ r : Fin (s * B), f r.val + ∑ r : Fin B, f (s * B + r.val) := by
  rw [sum_cast (Nat.succ_mul s B) f, sum_add]

/-- No blocks: the empty sum. -/
theorem sum_blocks_zero (B : Nat) (f : Nat → M) : ∑ r : Fin (0 * B), f r.val = 0 := by
  rw [sum_cast (Nat.zero_mul B) f]
  rfl

/-- Twenty-five blocks of 512 rows are the 12800 rows. -/
theorem sum_blocks_25_512 (f : Nat → M) : ∑ r : Fin (25 * 512), f r.val = ∑ r : Fin 12800, f r.val :=
  sum_cast (show 25 * 512 = 12800 from rfl) f

/-- Twenty-five blocks of 2048 rows are the 51200 rows. -/
theorem sum_blocks_25_2048 (f : Nat → M) : ∑ r : Fin (25 * 2048), f r.val = ∑ r : Fin 51200, f r.val :=
  sum_cast (show 25 * 2048 = 51200 from rfl) f

end Cert.LibBlockSums
-- ==== Proof.LibDotBlocks.lean ====
/-
  A dot product of length N taken K-block by K-block.

  The contracted axis of length N = S * B is walked in S consecutive blocks of B positions.  The sum of the first
  s blocks, as a function of s, starts at zero, grows by block s's own sum, and after all S blocks is the whole sum.
  Only that addition of extended reals commutes and associates is used: no finiteness.

  A summand is given on the N positions; it is extended by zero to every natural so that a position "s * B + r" can
  be written without carrying its bound.
-/
import Mathlib.Data.EReal.Basic
import proofs.«145184_j85813446574645_1_alg».proof.Proof.LibBlockSums

open scoped BigOperators

namespace Cert.LibDotBlocks

/-- A summand on the positions below N, extended by zero. -/
noncomputable def ext0 {N : ℕ} (g : Fin N → EReal) (i : ℕ) : EReal := if h : i < N then g ⟨i, h⟩ else 0

theorem ext0_of_lt {N : ℕ} (g : Fin N → EReal) {i : ℕ} (h : i < N) : ext0 g i = g ⟨i, h⟩ := dif_pos h

theorem ext0_val {N : ℕ} (g : Fin N → EReal) (k : Fin N) : ext0 g k.val = g k := ext0_of_lt g k.isLt

/-- The sum over the first s blocks of B positions. -/
noncomputable def partialSum {N : ℕ} (B : ℕ) (g : Fin N → EReal) (s : ℕ) : EReal := ∑ r : Fin (s * B), ext0 g r.val

/-- No block yet: zero. -/
theorem partialSum_zero {N : ℕ} (B : ℕ) (g : Fin N → EReal) : partialSum B g 0 = 0 :=
  Cert.LibBlockSums.sum_blocks_zero B (ext0 g)

/-- One more block: the sum so far plus the sum over block s. -/
theorem partialSum_succ {N : ℕ} (B : ℕ) (g : Fin N → EReal) (s : ℕ) :
    partialSum B g (s + 1) = partialSum B g s + ∑ r : Fin B, ext0 g (s * B + r.val) :=
  Cert.LibBlockSums.sum_blocks_succ B s (ext0 g)

/-- All S blocks: the whole sum. -/
theorem partialSum_all {N : ℕ} (B : ℕ) (g : Fin N → EReal) (s : ℕ) (h : s * B = N) :
    partialSum B g s = ∑ k : Fin N, g k := by
  unfold partialSum
  rw [Cert.LibBlockSums.sum_cast h (ext0 g)]
  exact Finset.sum_congr rfl fun k _ => ext0_val g k

end Cert.LibDotBlocks
-- ==== Proof.LibSumLaws.lean ====
/-
  Two laws of finite sums of extended reals that let a sum be taken block by block.

  Addition of extended reals commutes and associates, so a sum of sums regroups freely. Subtraction is addition of the
  negative, and the negative of a sum is the sum of the negatives only away from the infinities (the negative of
  "plus infinity plus minus infinity" is plus infinity, while the sum of the two negatives is minus infinity): the
  second law therefore asks that every term of the subtracted sum be a real number.
-/
import Mathlib.Data.EReal.Operations
import Mathlib.Algebra.BigOperators.Fin

open scoped BigOperators

namespace Cert.LibSumLaws

/-- A finite sum whose terms are all real is real. -/
theorem sum_real {ι : Type*} (s : Finset ι) (b : ι → EReal) (hb : ∀ i ∈ s, ∃ r : ℝ, b i = (r : EReal)) :
    ∃ r : ℝ, ∑ i ∈ s, b i = (r : EReal) := by
  classical
  induction s using Finset.induction_on with
  | empty => exact ⟨0, by simp⟩
  | insert a s ha ih =>
    obtain ⟨r, hr⟩ := hb a (Finset.mem_insert_self a s)
    obtain ⟨t, ht⟩ := ih fun i hi => hb i (Finset.mem_insert_of_mem hi)
    exact ⟨r + t, by rw [Finset.sum_insert ha, hr, ht, EReal.coe_add]⟩

/-- The negative of a finite sum of real terms is the sum of their negatives. -/
theorem neg_sum_of_real {ι : Type*} (s : Finset ι) (b : ι → EReal) (hb : ∀ i ∈ s, ∃ r : ℝ, b i = (r : EReal)) :
    -(∑ i ∈ s, b i) = ∑ i ∈ s, -(b i) := by
  classical
  induction s using Finset.induction_on with
  | empty => simp
  | insert a s ha ih =>
    obtain ⟨r, hr⟩ := hb a (Finset.mem_insert_self a s)
    have hs : ∀ i ∈ s, ∃ r : ℝ, b i = (r : EReal) := fun i hi => hb i (Finset.mem_insert_of_mem hi)
    obtain ⟨t, ht⟩ := sum_real s b hs
    rw [Finset.sum_insert ha, Finset.sum_insert ha, ← ih hs, hr, ht, ← EReal.coe_add, ← EReal.coe_neg, ← EReal.coe_neg,
      ← EReal.coe_neg, ← EReal.coe_add, neg_add]

/-- A difference of two sums is the sum of the differences, when every subtracted term is real. -/
theorem sub_sums {ι : Type*} [Fintype ι] (a b : ι → EReal) (hb : ∀ i, ∃ r : ℝ, b i = (r : EReal)) :
    (∑ i, a i) - (∑ i, b i) = ∑ i, (a i - b i) := by
  rw [sub_eq_add_neg, neg_sum_of_real Finset.univ b fun i _ => hb i, ← Finset.sum_add_distrib]
  exact Finset.sum_congr rfl fun i _ => (sub_eq_add_neg _ _).symm

/-- A difference of two sums started at zero is the sum of the differences, when every subtracted term is real. -/
theorem sub_sums_of_real {ι : Type*} [Fintype ι] (a b : ι → EReal) (hb : ∀ i, ∃ r : ℝ, b i = (r : EReal)) :
    (0 + ∑ i, a i) - (0 + ∑ i, b i) = ∑ i, (a i - b i) := by
  rw [zero_add, zero_add, sub_eq_add_neg, neg_sum_of_real Finset.univ b fun i _ => hb i, ← Finset.sum_add_distrib]
  exact Finset.sum_congr rfl fun i _ => (sub_eq_add_neg _ _).symm

/-- A sum of two sums started at zero is the sum of the sums of the terms. -/
theorem add_sums {ι : Type*} [Fintype ι] (a b : ι → EReal) :
    (0 + ∑ i, a i) + (0 + ∑ i, b i) = ∑ i, (a i + b i) := by
  rw [zero_add, zero_add, ← Finset.sum_add_distrib]

end Cert.LibSumLaws
-- ==== Proof.LibAccumLaw.lean ====
/-
  A sum over 4096 positions accumulated in blocks, when each block adds a difference (or a sum) of two partial sums.

  Write g(K) = u(K) − v(K) with every v(K) real. A running value that holds the sum of g over the first s blocks and then
  gains (the block's sum of u) − (the block's sum of v) holds the sum of g over the first s + 1 blocks: the negative of
  a sum of reals is the sum of the negatives, so the block's difference of sums is the block's sum of differences.
  After all blocks the running value is (the whole sum of u) − (the whole sum of v). With a sum in place of the
  difference nothing is asked of v: addition of extended reals commutes and associates.
-/
import proofs.«145184_j85813446574645_1_alg».proof.Proof.LibDotBlocks
import proofs.«145184_j85813446574645_1_alg».proof.Proof.LibSumLaws

open scoped BigOperators

namespace Cert.LibAccumLaw

open Cert.LibDotBlocks Cert.LibSumLaws

/-- A summand extended by zero stays real. -/
theorem ext0_real {N : ℕ} (v : Fin N → EReal) (hv : ∀ K, ∃ r : ℝ, v K = (r : EReal)) (i : ℕ) :
    ∃ r : ℝ, ext0 v i = (r : EReal) := by
  unfold ext0
  split
  · exact hv _
  · exact ⟨0, EReal.coe_zero.symm⟩

/-- Extending by zero commutes with a difference. -/
theorem ext0_sub {N : ℕ} (u v : Fin N → EReal) (i : ℕ) : ext0 (fun K => u K - v K) i = ext0 u i - ext0 v i := by
  unfold ext0
  split
  · rfl
  · exact (sub_zero (0 : EReal)).symm

/-- Extending by zero commutes with a sum. -/
theorem ext0_add {N : ℕ} (u v : Fin N → EReal) (i : ℕ) : ext0 (fun K => u K + v K) i = ext0 u i + ext0 v i := by
  unfold ext0
  split
  · rfl
  · exact (add_zero (0 : EReal)).symm

/-- One more block, each block adding (its sum of u) − (its sum of v), v real. -/
theorem step_sub {N : ℕ} (B : ℕ) (u v : Fin N → EReal) (hv : ∀ K, ∃ r : ℝ, v K = (r : EReal)) (s : ℕ)
    (u' v' : Fin B → EReal) (hu' : ∀ k : Fin B, u' k = ext0 u (s * B + k.val))
    (hv' : ∀ k : Fin B, v' k = ext0 v (s * B + k.val)) :
    partialSum B (fun K => u K - v K) s + ((∑ k, u' k) - (∑ k, v' k))
      = partialSum B (fun K => u K - v K) (s + 1) := by
  rw [partialSum_succ, sub_sums u' v' fun k => by rw [hv' k]; exact ext0_real v hv _]
  exact congrArg _ (Finset.sum_congr rfl fun k _ => by rw [hu' k, hv' k, ext0_sub])

/-- One more block, each block adding (its sum of u) + (its sum of v). -/
theorem step_add {N : ℕ} (B : ℕ) (u v : Fin N → EReal) (s : ℕ)
    (u' v' : Fin B → EReal) (hu' : ∀ k : Fin B, u' k = ext0 u (s * B + k.val))
    (hv' : ∀ k : Fin B, v' k = ext0 v (s * B + k.val)) :
    partialSum B (fun K => u K + v K) s + ((∑ k, u' k) + (∑ k, v' k))
      = partialSum B (fun K => u K + v K) (s + 1) := by
  rw [partialSum_succ, ← Finset.sum_add_distrib]
  exact congrArg _ (Finset.sum_congr rfl fun k _ => by rw [hu' k, hv' k, ext0_add])

/-- After all blocks: the whole sum of u minus the whole sum of v. -/
theorem all_sub {N : ℕ} (B s : ℕ) (h : s * B = N) (u v : Fin N → EReal) (hv : ∀ K, ∃ r : ℝ, v K = (r : EReal)) :
    partialSum B (fun K => u K - v K) s = (∑ K, u K) - (∑ K, v K) := by
  rw [partialSum_all B _ s h, sub_sums u v hv]

/-- After all blocks: the whole sum of u plus the whole sum of v. -/
theorem all_add {N : ℕ} (B s : ℕ) (h : s * B = N) (u v : Fin N → EReal) :
    partialSum B (fun K => u K + v K) s = (∑ K, u K) + (∑ K, v K) := by
  rw [partialSum_all B _ s h, Finset.sum_add_distrib]

end Cert.LibAccumLaw
-- ==== Proof.Accum.lean ====
/-
  What the two accumulators hold after each grid point.

  Fix an output entry: row I of the arguments and column J of the matrices. Along the contracted axis K the real part
  sums g(K) = x(I,K)·P(K,J) − y(I,K)·Q(K,J) and the imaginary part h(K) = x(I,K)·Q(K,J) + y(I,K)·P(K,J). The kernel walks
  K in eight steps of 512 positions; after step s of an output block each accumulator entry holds the sum of its
  summand over the first (s + 1)·512 positions. This is proved by induction on the grid point: the first step of a
  block starts from zero, every later step from what the step before left. The real part needs every y(I,K)·Q(K,J)
  real, which the precondition gives.
-/
import proofs.«145184_j85813446574645_1_alg».proof.Proof.Blocks
import proofs.«145184_j85813446574645_1_alg».proof.Proof.Pieces
import proofs.«145184_j85813446574645_1_alg».proof.Proof.Payload
import proofs.«145184_j85813446574645_1_alg».proof.Proof.LibAccumLaw

noncomputable section

namespace Cert.KernelIdeal.Accum

open Idealize.ShloMosaic Idealize.ShloMosaic.TcCoe Idealize.SL.Sem Idealize.ShloMosaic.ValueIdx
open Cert.KernelIdeal Cert.KernelIdeal.Gen Cert.KernelIdeal.Blocks Cert.LibDotBlocks

variable (m : (ℓ : Loc nD τ sig) → Buf (Elt Ideal) ℓ)

/-! ## The summands -/

/-- x(I,K)·P(K,J). -/
def xP (c : Dev nD) (I : Fin 8192) (J : Fin 4096) (K : Fin 4096) : EReal :=
  argX m c (ix2 I K) * Cert.Spec.matRe (argP m c) (ix2 K J)
/-- y(I,K)·Q(K,J). -/
def yQ (c : Dev nD) (I : Fin 8192) (J : Fin 4096) (K : Fin 4096) : EReal :=
  argY m c (ix2 I K) * Cert.Spec.matIm (argP m c) (ix2 K J)
/-- x(I,K)·Q(K,J). -/
def xQ (c : Dev nD) (I : Fin 8192) (J : Fin 4096) (K : Fin 4096) : EReal :=
  argX m c (ix2 I K) * Cert.Spec.matIm (argP m c) (ix2 K J)
/-- y(I,K)·P(K,J). -/
def yP (c : Dev nD) (I : Fin 8192) (J : Fin 4096) (K : Fin 4096) : EReal :=
  argY m c (ix2 I K) * Cert.Spec.matRe (argP m c) (ix2 K J)

/-- What the precondition gives: the second argument and the second projection matrix hold real numbers only. -/
def RealYQ (c : Dev nD) : Prop :=
  (∀ (i : Fin 8192) (k : Fin 4096), ∃ r : ℝ, argY m c (ix2 i k) = (r : EReal))
    ∧ (∀ (k j : Fin 4096), ∃ r : ℝ, Cert.Spec.matIm (argP m c) (ix2 k j) = (r : EReal))

/-- Then every y(I,K)·Q(K,J) is real. -/
theorem yQ_real (c : Dev nD) (hr : RealYQ m c) (I : Fin 8192) (J : Fin 4096) (K : Fin 4096) :
    ∃ r : ℝ, yQ m c I J K = (r : EReal) := by
  obtain ⟨r1, h1⟩ := hr.1 I K
  obtain ⟨r2, h2⟩ := hr.2 K J
  exact ⟨r1 * r2, by unfold yQ; rw [h1, h2, EReal.coe_mul]⟩

/-- The row of the arguments that row a of point t's blocks is. -/
abbrev rowOf (t : Fin cfg0.N) (a : Fin 1024) : Fin 8192 := ⟨t.val / 32 * 1024 + a.val, row_lt t a⟩
/-- The column of the matrices that column b of point t's blocks is. -/
abbrev colOf (t : Fin cfg0.N) (b : Fin 1024) : Fin 4096 := ⟨t.val / 8 % 4 * 1024 + b.val, col_lt t b⟩

/-- The real accumulator's entry after s steps of point t's output block. -/
def sumRe (c : Dev nD) (t : Fin cfg0.N) (a b : Fin 1024) (s : ℕ) : EReal :=
  partialSum 512 (fun K => xP m c (rowOf t a) (colOf t b) K - yQ m c (rowOf t a) (colOf t b) K) s
/-- The imaginary accumulator's entry after s steps of point t's output block. -/
def sumIm (c : Dev nD) (t : Fin cfg0.N) (a b : Fin 1024) (s : ℕ) : EReal :=
  partialSum 512 (fun K => xQ m c (rowOf t a) (colOf t b) K + yP m c (rowOf t a) (colOf t b) K) s

/-! ## One step -/

/-- One step of the real accumulator: from the sum over the steps before to the sum including this one. -/
theorem stepRe (c : Dev nD) (hr : RealYQ m c) (t : Fin cfg0.N) (a b : Fin 1024) (acc : FVec Ideal S1024x1024 .f32)
    (hacc : acc (ix2 a b) = sumRe m c t a b (t.val % 8)) :
    k0_pay7 (F := Ideal) (bx m c t) (bY m c t) (bP m c t) (bQ m c t) acc (ix2 a b) = sumRe m c t a b (t.val % 8 + 1) := by
  refine (Payload.stepRe_apply (bx m c t) (bY m c t) (bP m c t) (bQ m c t) acc a b).trans ?_
  rw [hacc]
  unfold sumRe
  refine Cert.LibAccumLaw.step_sub 512 _ _ (yQ_real m c hr _ _) (t.val % 8) _ _ (fun k => ?_) (fun k => ?_)
  · rw [ext0_of_lt _ (mid_lt t k), bx_apply, bP_apply]; rfl
  · rw [ext0_of_lt _ (mid_lt t k), bY_apply, bQ_apply]; rfl

/-- One step of the imaginary accumulator. -/
theorem stepIm (c : Dev nD) (t : Fin cfg0.N) (a b : Fin 1024) (acc : FVec Ideal S1024x1024 .f32)
    (hacc : acc (ix2 a b) = sumIm m c t a b (t.val % 8)) :
    k0_pay8 (F := Ideal) (bx m c t) (bY m c t) (bP m c t) (bQ m c t) acc (ix2 a b) = sumIm m c t a b (t.val % 8 + 1) := by
  refine (Payload.stepIm_apply (bx m c t) (bY m c t) (bP m c t) (bQ m c t) acc a b).trans ?_
  rw [hacc]
  unfold sumIm
  refine Cert.LibAccumLaw.step_add 512 _ _ (t.val % 8) _ _ (fun k => ?_) (fun k => ?_)
  · rw [ext0_of_lt _ (mid_lt t k), bx_apply, bQ_apply]; rfl
  · rw [ext0_of_lt _ (mid_lt t k), bY_apply, bP_apply]; rfl

/-- Before the first step both sums are empty. -/
theorem sumRe_zero (c : Dev nD) (t : Fin cfg0.N) (a b : Fin 1024) : sumRe m c t a b 0 = 0 := partialSum_zero 512 _
theorem sumIm_zero (c : Dev nD) (t : Fin cfg0.N) (a b : Fin 1024) : sumIm m c t a b 0 = 0 := partialSum_zero 512 _

/-- A later step of the same output block sees the same row and column. -/
theorem sumRe_prev (c : Dev nD) (t t' : Fin cfg0.N) (a b : Fin 1024) (s : ℕ) (h32 : t'.val / 32 = t.val / 32)
    (h8 : t'.val / 8 % 4 = t.val / 8 % 4) : sumRe m c t' a b s = sumRe m c t a b s := by
  have hr : rowOf t' a = rowOf t a := Fin.ext (by show t'.val / 32 * 1024 + a.val = t.val / 32 * 1024 + a.val; rw [h32])
  have hc : colOf t' b = colOf t b := Fin.ext (by show t'.val / 8 % 4 * 1024 + b.val = t.val / 8 % 4 * 1024 + b.val; rw [h8])
  unfold sumRe; rw [hr, hc]
theorem sumIm_prev (c : Dev nD) (t t' : Fin cfg0.N) (a b : Fin 1024) (s : ℕ) (h32 : t'.val / 32 = t.val / 32)
    (h8 : t'.val / 8 % 4 = t.val / 8 % 4) : sumIm m c t' a b s = sumIm m c t a b s := by
  have hr : rowOf t' a = rowOf t a := Fin.ext (by show t'.val / 32 * 1024 + a.val = t.val / 32 * 1024 + a.val; rw [h32])
  have hc : colOf t' b = colOf t b := Fin.ext (by show t'.val / 8 % 4 * 1024 + b.val = t.val / 8 % 4 * 1024 + b.val; rw [h8])
  unfold sumIm; rw [hr, hc]

/-! ## The accumulators after every point -/

/-- After point n each accumulator entry is the sum over the steps of its block up to and including this one. -/
theorem acc_eq (c : Dev nD) (hr : RealYQ m c) : ∀ (n : ℕ) (h : n < cfg0.N) (a b : Fin 1024),
    (outsAt0 m c n h).2.2.1 (ix2 a b) = sumRe m c ⟨n, h⟩ a b (n % 8 + 1)
      ∧ (outsAt0 m c n h).2.2.2 (ix2 a b) = sumIm m c ⟨n, h⟩ a b (n % 8 + 1) := by
  intro n
  induction n with
  | zero =>
    intro h a b
    have h0 : (⟨0, h⟩ : Fin cfg0.N).val % 8 = 0 := rfl
    have h1 : ¬(⟨0, h⟩ : Fin cfg0.N).val % 8 = 7 := (by decide : ¬(0 % 8 = 7))
    rw [outsAt0_A m c ⟨0, h⟩ h0 h1]
    dsimp only
    constructor
    · refine (congrFun (Pieces.accRe_first (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) scM0_1 (Memref.isWhole_whole _) _ _ (bx m c ⟨0, h⟩) (bY m c ⟨0, h⟩) (bP m c ⟨0, h⟩) (bQ m c ⟨0, h⟩)) (ix2 a b)).trans ?_
      exact stepRe m c hr ⟨0, h⟩ a b _ ((Payload.zeroRe_apply a b).trans (sumRe_zero m c _ a b).symm)
    · refine (congrFun (Pieces.accIm_first (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) scM0_1 (Memref.isWhole_whole _) _ _ (bx m c ⟨0, h⟩) (bY m c ⟨0, h⟩) (bP m c ⟨0, h⟩) (bQ m c ⟨0, h⟩)) (ix2 a b)).trans ?_
      exact stepIm m c ⟨0, h⟩ a b _ ((Payload.zeroIm_apply a b).trans (sumIm_zero m c _ a b).symm)
  | succ n ih =>
    intro h a b
    have hN : cfg0.N = 256 := N_0
    have hn : n < cfg0.N := Nat.lt_of_succ_lt h
    by_cases h0 : (⟨n + 1, h⟩ : Fin cfg0.N).val % 8 = 0
    · have h1 : ¬(⟨n + 1, h⟩ : Fin cfg0.N).val % 8 = 7 := by omega
      have hz : (n + 1) % 8 = 0 := h0
      rw [outsAt0_A m c ⟨n + 1, h⟩ h0 h1]
      dsimp only
      constructor
      · refine (congrFun (Pieces.accRe_first (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) _ _ (bx m c ⟨n + 1, h⟩) (bY m c ⟨n + 1, h⟩) (bP m c ⟨n + 1, h⟩) (bQ m c ⟨n + 1, h⟩)) (ix2 a b)).trans ?_
        exact stepRe m c hr ⟨n + 1, h⟩ a b _ ((Payload.zeroRe_apply a b).trans (by rw [h0]; exact (sumRe_zero m c _ a b).symm))
      · refine (congrFun (Pieces.accIm_first (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) _ _ (bx m c ⟨n + 1, h⟩) (bY m c ⟨n + 1, h⟩) (bP m c ⟨n + 1, h⟩) (bQ m c ⟨n + 1, h⟩)) (ix2 a b)).trans ?_
        exact stepIm m c ⟨n + 1, h⟩ a b _ ((Payload.zeroIm_apply a b).trans (by rw [h0]; exact (sumIm_zero m c _ a b).symm))
    · have hnz : ¬(n + 1) % 8 = 0 := h0
      have h32 : (⟨n, hn⟩ : Fin cfg0.N).val / 32 = (⟨n + 1, h⟩ : Fin cfg0.N).val / 32 := by show n / 32 = (n + 1) / 32; omega
      have h8 : (⟨n, hn⟩ : Fin cfg0.N).val / 8 % 4 = (⟨n + 1, h⟩ : Fin cfg0.N).val / 8 % 4 := by show n / 8 % 4 = (n + 1) / 8 % 4; omega
      have hs : n % 8 + 1 = (⟨n + 1, h⟩ : Fin cfg0.N).val % 8 := by show n % 8 + 1 = (n + 1) % 8; omega
      have ihRe : (outsAt0 m c n hn).2.2.1 (ix2 a b) = sumRe m c ⟨n + 1, h⟩ a b ((⟨n + 1, h⟩ : Fin cfg0.N).val % 8) := by
        rw [(ih hn a b).1, hs]; exact sumRe_prev m c _ _ a b _ h32 h8
      have ihIm : (outsAt0 m c n hn).2.2.2 (ix2 a b) = sumIm m c ⟨n + 1, h⟩ a b ((⟨n + 1, h⟩ : Fin cfg0.N).val % 8) := by
        rw [(ih hn a b).2, hs]; exact sumIm_prev m c _ _ a b _ h32 h8
      by_cases h1 : (⟨n + 1, h⟩ : Fin cfg0.N).val % 8 = 7
      · rw [outsAt0_C m c ⟨n + 1, h⟩ h0 h1]
        dsimp only
        constructor
        · refine (congrFun (Pieces.accRe_last (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) _ _ (bx m c ⟨n + 1, h⟩) (bY m c ⟨n + 1, h⟩) (bP m c ⟨n + 1, h⟩) (bQ m c ⟨n + 1, h⟩) (outsAt0 m c n hn).2.2.1 (outsAt0 m c n hn).2.2.2) (ix2 a b)).trans ?_
          exact stepRe m c hr ⟨n + 1, h⟩ a b _ ihRe
        · refine (congrFun (Pieces.accIm_last (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) _ _ (bx m c ⟨n + 1, h⟩) (bY m c ⟨n + 1, h⟩) (bP m c ⟨n + 1, h⟩) (bQ m c ⟨n + 1, h⟩) (outsAt0 m c n hn).2.2.1 (outsAt0 m c n hn).2.2.2) (ix2 a b)).trans ?_
          exact stepIm m c ⟨n + 1, h⟩ a b _ ihIm
      · rw [outsAt0_B m c ⟨n + 1, h⟩ h0 h1]
        dsimp only
        constructor
        · refine (congrFun (Pieces.accRe_mid (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) _ _ (bx m c ⟨n + 1, h⟩) (bY m c ⟨n + 1, h⟩) (bP m c ⟨n + 1, h⟩) (bQ m c ⟨n + 1, h⟩) (outsAt0 m c n hn).2.2.1 (outsAt0 m c n hn).2.2.2) (ix2 a b)).trans ?_
          exact stepRe m c hr ⟨n + 1, h⟩ a b _ ihRe
        · refine (congrFun (Pieces.accIm_mid (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) scM0_0 (Memref.isWhole_whole _) scM0_1 (Memref.isWhole_whole _) _ _ (bx m c ⟨n + 1, h⟩) (bY m c ⟨n + 1, h⟩) (bP m c ⟨n + 1, h⟩) (bQ m c ⟨n + 1, h⟩) (outsAt0 m c n hn).2.2.1 (outsAt0 m c n hn).2.2.2) (ix2 a b)).trans ?_
          exact stepIm m c ⟨n + 1, h⟩ a b _ ihIm

/-- At the last step of a block the two output blocks hold the complete sums. -/
theorem out_eq (c : Dev nD) (hr : RealYQ m c) (t : Fin cfg0.N) (h7 : t.val % 8 = 7) (a b : Fin 1024) :
    (outsAt0 m c t.val t.isLt).1 (ix2 a b) = sumRe m c t a b 8
      ∧ (outsAt0 m c t.val t.isLt).2.1 (ix2 a b) = sumIm m c t a b 8 := by
  obtain ⟨n, h⟩ := t
  have hN : cfg0.N = 256 := N_0
  have h7' : n % 8 = 7 := h7
  obtain ⟨k, rfl⟩ : ∃ k, n = k + 1 := ⟨n - 1, by omega⟩
  have hn : k < cfg0.N := Nat.lt_of_succ_lt h
  have h0 : ¬(⟨k + 1, h⟩ : Fin cfg0.N).val % 8 = 0 := by show ¬(k + 1) % 8 = 0; omega
  have h32 : (⟨k, hn⟩ : Fin cfg0.N).val / 32 = (⟨k + 1, h⟩ : Fin cfg0.N).val / 32 := by show k / 32 = (k + 1) / 32; omega
  have h8 : (⟨k, hn⟩ : Fin cfg0.N).val / 8 % 4 = (⟨k + 1, h⟩ : Fin cfg0.N).val / 8 % 4 := by show k / 8 % 4 = (k + 1) / 8 % 4; omega
  have hs : k % 8 + 1 = (⟨k + 1, h⟩ : Fin cfg0.N).val % 8 := by show k % 8 + 1 = (k + 1) % 8; omega
  have h78 : (⟨k + 1, h⟩ : Fin cfg0.N).val % 8 + 1 = 8 := by show (k + 1) % 8 + 1 = 8; omega
  have ihRe : (outsAt0 m c k hn).2.2.1 (ix2 a b) = sumRe m c ⟨k + 1, h⟩ a b ((⟨k + 1, h⟩ : Fin cfg0.N).val % 8) := by
    rw [(acc_eq m c hr k hn a b).1, hs]; exact sumRe_prev m c _ _ a b _ h32 h8
  have ihIm : (outsAt0 m c k hn).2.2.2 (ix2 a b) = sumIm m c ⟨k + 1, h⟩ a b ((⟨k + 1, h⟩ : Fin cfg0.N).val % 8) := by
    rw [(acc_eq m c hr k hn a b).2, hs]; exact sumIm_prev m c _ _ a b _ h32 h8
  show (outsAt0 m c (k + 1) h).1 (ix2 a b) = _ ∧ (outsAt0 m c (k + 1) h).2.1 (ix2 a b) = _
  rw [outsAt0_C m c ⟨k + 1, h⟩ h0 h7]
  dsimp only
  constructor
  · refine (congrFun (Pieces.outRe_last (F := Ideal) c (grid0.coords ⟨k + 1, h⟩) (ms0_0 ⟨k + 1, h⟩) (hs0_0 ⟨k + 1, h⟩) (ms0_1 ⟨k + 1, h⟩) (hs0_1 ⟨k + 1, h⟩) (ms0_2 ⟨k + 1, h⟩) (hs0_2 ⟨k + 1, h⟩) (ms0_3 ⟨k + 1, h⟩) (hs0_3 ⟨k + 1, h⟩) (ms0_4 ⟨k + 1, h⟩) (hs0_4 ⟨k + 1, h⟩) (ms0_5 ⟨k + 1, h⟩) (hs0_5 ⟨k + 1, h⟩) scM0_0 (Memref.isWhole_whole _) scM0_1 (Memref.isWhole_whole _) _ _ (bx m c ⟨k + 1, h⟩) (bY m c ⟨k + 1, h⟩) (bP m c ⟨k + 1, h⟩) (bQ m c ⟨k + 1, h⟩) (outsAt0 m c k hn).2.2.1 (outsAt0 m c k hn).2.2.2) (ix2 a b)).trans ?_
    refine (stepRe m c hr ⟨k + 1, h⟩ a b _ ihRe).trans ?_
    rw [h78]
  · refine (congrFun (Pieces.outIm_last (F := Ideal) c (grid0.coords ⟨k + 1, h⟩) (ms0_0 ⟨k + 1, h⟩) (hs0_0 ⟨k + 1, h⟩) (ms0_1 ⟨k + 1, h⟩) (hs0_1 ⟨k + 1, h⟩) (ms0_2 ⟨k + 1, h⟩) (hs0_2 ⟨k + 1, h⟩) (ms0_3 ⟨k + 1, h⟩) (hs0_3 ⟨k + 1, h⟩) (ms0_4 ⟨k + 1, h⟩) (hs0_4 ⟨k + 1, h⟩) (ms0_5 ⟨k + 1, h⟩) (hs0_5 ⟨k + 1, h⟩) scM0_0 (Memref.isWhole_whole _) scM0_1 (Memref.isWhole_whole _) _ _ (bx m c ⟨k + 1, h⟩) (bY m c ⟨k + 1, h⟩) (bP m c ⟨k + 1, h⟩) (bQ m c ⟨k + 1, h⟩) (outsAt0 m c k hn).2.2.1 (outsAt0 m c k hn).2.2.2) (ix2 a b)).trans ?_
    refine (stepIm m c ⟨k + 1, h⟩ a b _ ihIm).trans ?_
    rw [h78]

end Cert.KernelIdeal.Accum

end
-- ==== Proof.Final.lean ====
/-
  The two result arrays of the kernel region, whole.

  An output block is written back only after the last of its eight steps, when it holds the complete sums: at row a and
  column b of block (t / 32, t / 8 % 4) that is entry (I, J) of x·P − y·Q, respectively x·Q + y·P, with I the block's
  row a and J its column b. The 8 × 4 output blocks tile the 8192 × 4096 arrays, so after the region each array is that
  function everywhere.
-/
import proofs.«145184_j85813446574645_1_alg».proof.Proof.Accum

noncomputable section

namespace Cert.KernelIdeal.Final

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Blocks Cert.KernelIdeal.Accum

variable (m : (ℓ : Loc nD τ sig) → Buf (Elt Ideal) ℓ)

/-- The product of an 8192 × 4096 array by a 4096 × 4096 matrix at one entry. -/
theorem prod_apply (X : FVec Ideal S8192x4096 .f32) (M : FVec Ideal S4096x4096 .f32) (I : Fin 8192) (J : Fin 4096) :
    Cert.Spec.prod X M (ix2 I J) = ∑ K : Fin 4096, X (ix2 I K) * M (ix2 K J) :=
  Cert.LibPlainMatmul.dotGeneral_plain_apply (M := 8192) (K := 4096) (N := 4096) none X M I J

/-- After all eight steps the real sum is the entry of x·P − y·Q. -/
theorem sumRe_all (c : Dev nD) (hr : RealYQ m c) (t : Fin cfg0.N) (a b : Fin 1024) :
    sumRe m c t a b 8 = Cert.Spec.re (argX m c) (argY m c) (argP m c) (ix2 (rowOf t a) (colOf t b)) := by
  unfold sumRe Cert.Spec.re
  rw [Cert.LibAccumLaw.all_sub 512 8 rfl _ _ (yQ_real m c hr _ _), subf_apply, prod_apply, prod_apply]
  rfl

/-- After all eight steps the imaginary sum is the entry of x·Q + y·P. -/
theorem sumIm_all (c : Dev nD) (t : Fin cfg0.N) (a b : Fin 1024) :
    sumIm m c t a b 8 = Cert.Spec.im (argX m c) (argY m c) (argP m c) (ix2 (rowOf t a) (colOf t b)) := by
  unfold sumIm Cert.Spec.im
  rw [Cert.LibAccumLaw.all_add 512 8 rfl, addf_apply, prod_apply, prod_apply]
  rfl

/-! ## What a point writes back -/

theorem flushedRe (c : Dev nD) (hr : RealYQ m c) (t : Fin cfg0.N) (hf : (cfg0.win 4).flush t = true) :
    (dats m 0 c).flushed 4 t
      = ((cfg0.win 4).blk t).view.read (Elt Ideal) (Cert.Spec.re (argX m c) (argY m c) (argP m c)) := by
  have h7 : t.val % 8 = 7 := (flush0_4 t).mp hf
  show (cfg0.win 4).cut (grid0.coords t) ((dats m 0 c).after 4 t) = _
  rw [after0_4]
  funext y
  obtain ⟨a, b, rfl⟩ : ∃ (a b : Fin 1024), y = ix2 a b := ⟨y 0, y 1, eq_ix2 y⟩
  rw [View.read_apply]
  show (outsAt0 m c t.val t.isLt).1 (ix2 a b) = Cert.Spec.re _ _ _ (((cfg0.win 4).blk t).view.emb (ix2 a b))
  rw [(out_eq m c hr t h7 a b).1, sumRe_all m c hr]
  congr 1
  funext ax
  apply Fin.ext
  match ax with
  | ⟨0, _⟩ => show t.val / 32 * 1024 + a.val = win0_4.index t 0 * 1024 + 1 * a.val; rw [(idx4 t).1]; omega
  | ⟨1, _⟩ => show t.val / 8 % 4 * 1024 + b.val = win0_4.index t 1 * 1024 + 1 * b.val; rw [(idx4 t).2]; omega

theorem flushedIm (c : Dev nD) (hr : RealYQ m c) (t : Fin cfg0.N) (hf : (cfg0.win 5).flush t = true) :
    (dats m 0 c).flushed 5 t
      = ((cfg0.win 5).blk t).view.read (Elt Ideal) (Cert.Spec.im (argX m c) (argY m c) (argP m c)) := by
  have h7 : t.val % 8 = 7 := (flush0_5 t).mp hf
  show (cfg0.win 5).cut (grid0.coords t) ((dats m 0 c).after 5 t) = _
  rw [after0_5]
  funext y
  obtain ⟨a, b, rfl⟩ : ∃ (a b : Fin 1024), y = ix2 a b := ⟨y 0, y 1, eq_ix2 y⟩
  rw [View.read_apply]
  show (outsAt0 m c t.val t.isLt).2.1 (ix2 a b) = Cert.Spec.im _ _ _ (((cfg0.win 5).blk t).view.emb (ix2 a b))
  rw [(out_eq m c hr t h7 a b).2, sumIm_all m c]
  congr 1
  funext ax
  apply Fin.ext
  match ax with
  | ⟨0, _⟩ => show t.val / 32 * 1024 + a.val = win0_5.index t 0 * 1024 + 1 * a.val; rw [(idx5 t).1]; omega
  | ⟨1, _⟩ => show t.val / 8 % 4 * 1024 + b.val = win0_5.index t 1 * 1024 + 1 * b.val; rw [(idx5 t).2]; omega

/-! ## The output blocks tile the arrays -/

/-- An index is in point t's real output block iff each coordinate is in the block's range on its axis. -/
theorem mem_blkRe (t : Fin cfg0.N) (i : S8192x4096.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v20_0).slice (win0_4.rect t)).set ↔ _
  rw [View.set_slice_whole, Rect.mem_set_unit]
  exact Iff.rfl

theorem mem_blkIm (t : Fin cfg0.N) (i : S8192x4096.Idx) :
    i ∈ ((cfg0.win 5).blk t).view.set ↔ ∀ a : Fin 2, win0_5.index t a * S1024x1024.size a ≤ (i a).val
      ∧ (i a).val < win0_5.index t a * S1024x1024.size a + S1024x1024.size a := by
  show i ∈ ((View.whole main_v20_1).slice (win0_5.rect t)).set ↔ _
  rw [View.set_slice_whole, Rect.mem_set_unit]
  exact Iff.rfl

/-- The last step of the block that holds a given entry. -/
theorem lastStep_lt (i : S8192x4096.Idx) : (i 0).val / 1024 * 32 + (i 1).val / 1024 * 8 + 7 < cfg0.N := by
  have hN : cfg0.N = 256 := N_0
  have hi0 : (i 0).val < 8192 := (i 0).isLt
  have hi1 : (i 1).val < 4096 := (i 1).isLt
  omega

theorem coverRe (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  have e0 : win0_4.index ⟨_, lastStep_lt i⟩ 0 = ((i 0).val / 1024 * 32 + (i 1).val / 1024 * 8 + 7) / 32 := (idx4 ⟨_, lastStep_lt i⟩).1
  have e1 : win0_4.index ⟨_, lastStep_lt i⟩ 1 = ((i 0).val / 1024 * 32 + (i 1).val / 1024 * 8 + 7) / 8 % 4 := (idx4 ⟨_, lastStep_lt i⟩).2
  refine ⟨⟨_, lastStep_lt i⟩, (flush0_4 _).mpr (by show ((i 0).val / 1024 * 32 + (i 1).val / 1024 * 8 + 7) % 8 = 7; omega), ?_⟩
  rw [mem_blkRe]
  intro a
  match a with
  | ⟨0, _⟩ => show win0_4.index _ 0 * 1024 ≤ (i 0).val ∧ (i 0).val < win0_4.index _ 0 * 1024 + 1024; rw [e0]; omega
  | ⟨1, _⟩ => show win0_4.index _ 1 * 1024 ≤ (i 1).val ∧ (i 1).val < win0_4.index _ 1 * 1024 + 1024; rw [e1]; omega

theorem coverIm (i : S8192x4096.Idx) :
    ∃ t : Fin cfg0.N, (cfg0.win 5).flush t = true ∧ i ∈ ((cfg0.win 5).blk t).view.set := by
  have hi0 : (i 0).val < 8192 := (i 0).isLt
  have hi1 : (i 1).val < 4096 := (i 1).isLt
  have e0 : win0_5.index ⟨_, lastStep_lt i⟩ 0 = ((i 0).val / 1024 * 32 + (i 1).val / 1024 * 8 + 7) / 32 := (idx5 ⟨_, lastStep_lt i⟩).1
  have e1 : win0_5.index ⟨_, lastStep_lt i⟩ 1 = ((i 0).val / 1024 * 32 + (i 1).val / 1024 * 8 + 7) / 8 % 4 := (idx5 ⟨_, lastStep_lt i⟩).2
  refine ⟨⟨_, lastStep_lt i⟩, (flush0_5 _).mpr (by show ((i 0).val / 1024 * 32 + (i 1).val / 1024 * 8 + 7) % 8 = 7; omega), ?_⟩
  rw [mem_blkIm]
  intro a
  match a with
  | ⟨0, _⟩ => show win0_5.index _ 0 * 1024 ≤ (i 0).val ∧ (i 0).val < win0_5.index _ 0 * 1024 + 1024; rw [e0]; omega
  | ⟨1, _⟩ => show win0_5.index _ 1 * 1024 ≤ (i 1).val ∧ (i 1).val < win0_5.index _ 1 * 1024 + 1024; rw [e1]; omega

/-! ## The arrays after the region -/

theorem finalRe (c : Dev nD) (hr : RealYQ m c) :
    (dats m 0 c).arrAt 4 cfg0.N = Cert.Spec.re (argX m c) (argY m c) (argP m c) :=
  (dats m 0 c).arrAt_eq_of_cover 4 _ (flushedRe m c hr) coverRe

theorem finalIm (c : Dev nD) (hr : RealYQ m c) :
    (dats m 0 c).arrAt 5 cfg0.N = Cert.Spec.im (argX m c) (argY m c) (argP m c) :=
  (dats m 0 c).arrAt_eq_of_cover 5 _ (flushedIm m c hr) coverIm

end Cert.KernelIdeal.Final

end
-- ==== Proof.PreReal.lean ====
/-
  The precondition read back as statements about real numbers.

  The precondition says that every entry of the three argument arrays has absolute value below plus infinity and that
  the projector's second column is not the zero vector. An extended real of finite absolute value is a real number, so
  the second argument array and the second column a_0, …, a_4095 are real. Some a_k is not zero, hence the sum of squares
  s = Σ a_k² is a positive real and the norm √s is a positive real. A quotient by a real that is not zero is the product
  with its reciprocal, so each normalised entry a_k / √s is real, and entry (k, j) of the outer product, the one-term
  sum (a_k / √s) · (a_j / √s), is real.
-/
import proofs.«145184_j85813446574645_1_alg».proof.Defs
import proofs.«145184_j85813446574645_1_alg».proof.Proof.Gen.Pre_finite_inputs
import proofs.«145184_j85813446574645_1_alg».proof.Proof.Spec
import Idealize.ShloMosaic.Lib.ValueIdx
import Idealize.ShloMosaic.Lib.IdealHost
import Idealize.ShloMosaic.Lib.ReduceAll
import Idealize.ShloMosaic.Lib.StackMember
import Idealize.ShloMosaic.Lib.Pipeline.Value
import Idealize.ShloMosaic.PureOps.Ideal.Laws

noncomputable section

namespace Cert.PreReal

open Idealize.ShloMosaic Idealize.ShloMosaic.ValueIdx

open Cert.ReferenceIdeal

/-! ## Extended reals: finite entries, sums of squares, quotients by a positive real -/

/-- The f32 word with all exponent bits set and no fraction bit is plus infinity. -/
theorem ofBits_inf : Ideal.ofBits .f32 0x7F800000#32 = (⊤ : EReal) := by
  simp [Ideal.ofBits, Ideal.ieee]

/-- A truth value whose one-bit word is one is true. -/
theorem ofBool_eq_one : ∀ {b : Bool}, BitVec.ofBool b = 1#1 → b = true := by decide

/-- An extended real whose absolute value is below plus infinity is a real number. -/
theorem real_of_abs_lt (a : EReal)
    (h : Ideal.cmp .olt (max a (-a)) (Ideal.ofBits .f32 0x7F800000#32) = 1#1) : ∃ r : ℝ, a = (r : EReal) := by
  rw [ofBits_inf] at h
  have h' : max a (-a) < ⊤ := by
    unfold Ideal.cmp at h
    exact of_decide_eq_true (ofBool_eq_one h)
  induction a using EReal.rec with
  | bot => simp at h'
  | top => simp at h'
  | coe r => exact ⟨r, rfl⟩

/-- A finite sum of real numbers, taken in the extended reals, is the real sum. -/
theorem coe_sum {ι : Type} (s : Finset ι) (f : ι → ℝ) :
    ∑ i ∈ s, ((f i : ℝ) : EReal) = ((∑ i ∈ s, f i : ℝ) : EReal) := by
  classical
  refine Finset.induction_on s (by simp) ?_
  intro a s ha ih
  rw [Finset.sum_insert ha, Finset.sum_insert ha, ih, EReal.coe_add]

/-- The square root of a real number that is not negative is the real square root. -/
theorem sqrt_coe_nonneg {s : ℝ} (hs : 0 ≤ s) : Ideal.sqrt (s : EReal) = ((Real.sqrt s : ℝ) : EReal) := by
  rw [Ideal.sqrt_coe, if_neg (not_lt.2 hs)]

/-- A real number divided by a real number that is not zero is a real number. -/
theorem div_real (a : ℝ) {n : ℝ} (hn : n ≠ 0) : Ideal.div (a : EReal) (n : EReal) = ((a * (1 / n) : ℝ) : EReal) := by
  rw [Ideal.div_coe hn, ← EReal.coe_mul]

/-! ## One-bit words -/

/-- A left fold of the conjunction over ones, started at one, is one. -/
theorem foldl_andi_all_one {ι : Type} (f : ι → BitVec 1) :
    ∀ l : List ι, (∀ n ∈ l, f n = 1#1) → l.foldl (fun r n => IntOp.andi r (f n)) 1#1 = 1#1
  | [], _ => rfl
  | a :: l, hl => by
    rw [List.foldl_cons, hl a (List.mem_cons_self ..)]
    exact foldl_andi_all_one f l (fun n hn => hl n (List.mem_cons_of_mem _ hn))

/-- A conjunction over an array, started at one, that is not one met an element that is not one. -/
theorem exists_ne_one_of_reduce_andi {s t u : Shape} {axes : List (Fin s.rank)} (x : s.Idx → BitVec 1)
    (init : u.Idx → BitVec 1) (h : s.ReducesTo axes t) (hu : 0 < u.numel) (j : t.Idx)
    (hinit : init (Shape.Idx.first hu) = 1#1) (e : Host.reduce IntOp.andi x init h hu j ≠ 1#1) :
    ∃ i, x i ≠ 1#1 := by
  by_contra hall
  apply e
  rw [Host.reduce_eq_foldl, hinit]
  exact foldl_andi_all_one x _ (fun i _ => not_not.1 fun hi => hall ⟨i, hi⟩)

/-- A one-bit word whose complement is one is not one. -/
theorem ne_one_of_not_eq_one : ∀ {b : BitVec 1}, ~~~b = 1#1 → b ≠ 1#1 := by decide

/-! ## The operations of the projection matrix read at an index -/

/-- Entry k of the projector's second column. -/
theorem col_apply (hs : S2x4096x1.Slices ![1, 0, 0] S1x4096x1) (hc : S1x4096x1.ShapeCasts S4096x1)
    (p : FVec Ideal S2x4096x1 .f32) (k : Fin 4096) (c : Fin 1) :
    shapeCast S4096x1 (extractStridedSlice S1x4096x1 ![1, 0, 0] p hs) hc (ix2 k c)
      = p (ix3 (1 : Fin 2) k (0 : Fin 1)) := by
  rw [shapeCast_apply _ hc (ix2 k c) (ix3 (0 : Fin 1) k (0 : Fin 1))
    (by rewrite [Shape.rowMajor_val_three, Shape.rowMajor_val_two]
        have h1 : c.val < 1 := c.isLt
        show (0 * 4096 + k.val) * 1 + 0 = k.val * 1 + c.val
        omega)]
  exact extractStridedSlice_apply ![1, 0, 0] p hs (ix3 (0 : Fin 1) k (0 : Fin 1)) (ix3 (1 : Fin 2) k (0 : Fin 1))
    (fun a => match a with
      | ⟨0, _⟩ => by show 1 = 1 + 0; omega
      | ⟨1, _⟩ => by show k.val = 0 + k.val; omega
      | ⟨2, _⟩ => by show 0 = 0 + 0; omega)

/-- The norm of a column is the square root of the sum of its squared entries. -/
theorem norm_apply (v : FVec Ideal S4096x1 .f32) :
    Cert.Spec.norm v (ix1 (0 : Fin 1)) = Ideal.sqrt (0 + ∑ k : Fin 4096, v (ix2 k (0 : Fin 1)) * v (ix2 k (0 : Fin 1))) := by
  unfold Cert.Spec.norm
  show Ideal.sqrt (Host.reduceAdd (F := Ideal) (mulf v v) (constant (F := Ideal) S_ .f32 0x00000000#32) _ _ (ix1 (0 : Fin 1))) = _
  simp only [Host.reduceAdd, Ideal.hostReduceAdd_def]
  rw [Ideal.hostReduceAdd_single Gen.reducesTo_S4096x1_S1_d0 (by decide)]
  rw [show constant (F := Ideal) S_ .f32 0x00000000#32 (Shape.Idx.first Gen.h_S_) = (0 : EReal) from Ideal.ofBits_zero_f32]
  refine congrArg Ideal.sqrt (congrArg (_ + ·) (Finset.sum_congr rfl fun k _ => ?_))
  rw [mulf_apply]
  have e : Shape.Reduces.lift (by decide : S4096x1.Reduces [0] S1) (ix1 (0 : Fin 1)) k = ix2 k (0 : Fin 1) :=
    funext fun a => Fin.ext (by match a with | ⟨0, _⟩ => rfl | ⟨1, _⟩ => rfl)
  rw [e]
  rfl

/-- Each entry of the normalised column is the column's entry divided by the norm. -/
theorem unitCol_apply (v : FVec Ideal S4096x1 .f32) (k : Fin 4096) (c : Fin 1) :
    Cert.Spec.unitCol v (ix2 k c) = Ideal.div (v (ix2 k c)) (Cert.Spec.norm v (ix1 (0 : Fin 1))) := by
  unfold Cert.Spec.unitCol
  rw [hostDivf_apply]
  rw [broadcastInDim_apply _ Gen.bcast_S1x1_S4096x1_0_1 _ (ix2 k c) (ix2 (0 : Fin 1) (0 : Fin 1)) (fun a => match a with
    | ⟨0, _⟩ => by show 0 = if (1 : Nat) = 1 then 0 else k.val; rw [if_pos rfl]
    | ⟨1, _⟩ => by show 0 = if (1 : Nat) = 1 then 0 else c.val; rw [if_pos rfl])]
  rw [broadcastInDim_apply _ Gen.bcast_S1_S1x1_1 _ (ix2 (0 : Fin 1) (0 : Fin 1)) (ix1 (0 : Fin 1)) (fun a => match a with
    | ⟨0, _⟩ => by show 0 = if (1 : Nat) = 1 then 0 else 0; rw [if_pos rfl])]

/-- Entry (k, j) of the outer product of a column with itself is the product of entries k and j. -/
theorem outer_apply (u : FVec Ideal S4096x1 .f32) (k j : Fin 4096) :
    Cert.Spec.outer u (ix2 k j) = u (ix2 k (0 : Fin 1)) * u (ix2 j (0 : Fin 1)) := by
  unfold Cert.Spec.outer
  rw [show Host.dotGeneral (F := Ideal) dot_S4096x1_S1x4096_S4096x4096_1_0_0_1_n_n none u
        (transpose S1x4096 [1, 0] u Gen.transposes_S4096x1_S1x4096_1_0) (ix2 k j)
      = ∑ c : Fin 1, u (ix2 k c) * (transpose S1x4096 [1, 0] u Gen.transposes_S4096x1_S1x4096_1_0) (ix2 c j)
      from StackMember.dotGeneral_plain_apply none u _ k j]
  rw [Fin.sum_univ_one]
  rw [transpose_apply [1, 0] u Gen.transposes_S4096x1_S1x4096_1_0 (ix2 (0 : Fin 1) j) (ix2 j (0 : Fin 1)) (fun b => match b with
    | ⟨0, _⟩ => rfl
    | ⟨1, _⟩ => rfl)]

/-! ## The precondition read back -/

local instance : Subsingleton Cert.Pre_finite_inputs.S_.Idx := ⟨fun a b => funext fun d => d.elim0⟩

/-- Under the precondition every entry of the second argument array is a real number, and so is every entry of the
    projection matrix built from the projector's second column: that column is finite and not the zero vector, so
    its norm is a positive real and every normalised entry, and every product of two of them, is real. -/
theorem real_of_pre (x y : FVec Ideal Cert.ReferenceIdeal.S8192x4096 .f32) (p : FVec Ideal Cert.ReferenceIdeal.S2x4096x1 .f32)
    (h : Cert.Pre_finite_inputs.fn (F := Ideal) x y p = fun _ => 1#1) :
    (∀ (i : Fin 8192) (k : Fin 4096), ∃ r : ℝ, y (ix2 i k) = (r : EReal))
      ∧ (∀ (k j : Fin 4096), ∃ r : ℝ, Cert.Spec.matIm p (ix2 k j) = (r : EReal)) := by
  have h0 := congrFun h ValueIdx.ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨_, h2⟩ := IntOp.andi_eq_one.1 h12
  -- every entry of the second array and of the projector is finite
  have hy : ∀ (i : Fin 8192) (k : Fin 4096), ∃ r : ℝ, y (ix2 i k) = (r : EReal) := fun i k =>
    real_of_abs_lt _ (Host.reduce_andi_all _ _ _ _ _ h2 (ix2 i k))
  have hp : ∀ k : Fin 4096, ∃ r : ℝ, p (ix3 (1 : Fin 2) k (0 : Fin 1)) = (r : EReal) := fun k =>
    real_of_abs_lt _ (Host.reduce_andi_all _ _ _ _ _ h3 (ix3 (1 : Fin 2) k (0 : Fin 1)))
  refine ⟨hy, ?_⟩
  choose a ha using hp
  -- some entry of the second column is not zero
  obtain ⟨i0, hi0⟩ := exists_ne_one_of_reduce_andi _ _ _ _ _ rfl (ne_one_of_not_eq_one h4)
  obtain ⟨k0, c0, rfl⟩ : ∃ (k0 : Fin 4096) (c0 : Fin 1), i0 = ix2 k0 c0 := ⟨i0 0, i0 1, eq_ix2 i0⟩
  have hk0 : a k0 ≠ 0 := by
    intro e0
    apply hi0
    rw [cmpf_apply, col_apply, ha, e0]
    show Ideal.cmp .oeq ((0 : ℝ) : EReal) (Ideal.ofBits .f32 0x00000000#32) = 1#1
    rw [Ideal.ofBits_zero_f32, EReal.coe_zero]
    simp [Ideal.cmp]
  -- the sum of the squared entries is a positive real, and so is its square root
  have hs : 0 < ∑ k : Fin 4096, a k * a k :=
    lt_of_lt_of_le (mul_self_pos.2 hk0)
      (Finset.single_le_sum (f := fun k => a k * a k) (fun k _ => mul_self_nonneg (a k)) (Finset.mem_univ k0))
  have hn : Real.sqrt (∑ k : Fin 4096, a k * a k) ≠ 0 := (Real.sqrt_pos.2 hs).ne'
  have hcol : ∀ k : Fin 4096, Cert.Spec.col ![1, 0, 0] Facts₀.slices_S2x4096x1_S1x4096x1_1_0_0 p (ix2 k (0 : Fin 1)) = (a k : EReal) :=
    fun k => (col_apply _ _ p k 0).trans (ha k)
  have hnorm : Cert.Spec.norm (Cert.Spec.col ![1, 0, 0] Facts₀.slices_S2x4096x1_S1x4096x1_1_0_0 p) (ix1 (0 : Fin 1))
      = ((Real.sqrt (∑ k : Fin 4096, a k * a k) : ℝ) : EReal) := by
    rw [norm_apply]
    simp only [hcol, ← EReal.coe_mul]
    rw [coe_sum, zero_add, sqrt_coe_nonneg hs.le]
  intro k j
  refine ⟨a k * (1 / Real.sqrt (∑ k : Fin 4096, a k * a k)) * (a j * (1 / Real.sqrt (∑ k : Fin 4096, a k * a k))), ?_⟩
  unfold Cert.Spec.matIm
  rw [outer_apply, unitCol_apply, unitCol_apply, hnorm, hcol, hcol, div_real _ hn, div_real _ hn, ← EReal.coe_mul]

end Cert.PreReal

end
-- ==== Proof.KernelRun.lean ====
/-
  The idealized kernel's run, read: its two results as functions of the three arguments.

  After the region the two result arrays are x·P − y·Q and x·Q + y·P; the two host operations after the region insert a
  unit axis into each; nothing after the region writes an argument. The precondition supplies what the real part
  needs: the second argument and the second projection matrix hold real numbers only.
-/
import proofs.«145184_j85813446574645_1_alg».proof.Defs
import proofs.«145184_j85813446574645_1_alg».proof.Proof.Final
import proofs.«145184_j85813446574645_1_alg».proof.Proof.PreReal

noncomputable section

namespace Cert.KernelIdeal.KernelRun

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Blocks Cert.KernelIdeal.Accum Cert.KernelIdeal.Final

variable (m : (ℓ : Loc nD τ sig) → Buf (Elt Ideal) ℓ) (ρ : Dev nD → PrngReg)

/-- Under the precondition the second argument and the second projection matrix are real. -/
theorem real_of_pre (hpre : Cert.Pre_KernelIdeal m) (c : Dev nD) : RealYQ m c :=
  Cert.PreReal.real_of_pre (argX m c) (argY m c) (argP m c) (hpre c)

/-- The first result: the real part with a unit axis inserted. -/
theorem tailRe (c : Dev nD) (hr : RealYQ m c) :
    Pipeline.afterTail₀ cfgs (dats m) 0 (V0 m) [hostOps1] c main_v21
      = Cert.Spec.tail (Cert.Spec.re (argX m c) (argY m c) (argP m c)) := by
  unfold Pipeline.afterTail₀
  show StableHlo.after hostOps1 _ (Proc.devRef .tc main_v21) = _
  after_results
  exact congrArg Cert.Spec.tail ((Pipeline.withArrays_arr spec0 launch0.win.arr_inj c _ _ 4).trans (finalRe m c hr))

/-- The second result: the imaginary part with a unit axis inserted. -/
theorem tailIm (c : Dev nD) (hr : RealYQ m c) :
    Pipeline.afterTail₀ cfgs (dats m) 0 (V0 m) [hostOps1] c main_v22
      = Cert.Spec.tail (Cert.Spec.im (argX m c) (argY m c) (argP m c)) := by
  unfold Pipeline.afterTail₀
  show StableHlo.after hostOps1 _ (Proc.devRef .tc main_v22) = _
  after_results
  exact congrArg Cert.Spec.tail ((Pipeline.withArrays_arr spec0 launch0.win.arr_inj c _ _ 5).trans (finalIm m c hr))

/-- Under the precondition every weakly fair execution terminates with the two results at the specification's real and
    imaginary parts of the arguments, and the arguments unchanged. -/
theorem run (hpre : Cert.Pre_KernelIdeal m) :
    θ_run (defs (F := Ideal)) (onTc (τ := τ) (main (F := Ideal))) ⟨m, fun _ => 0, ρ⟩ fun r => ∀ c : Dev nD,
      r.2.mem ((c.tc : Thread nD τ).loc main_v21)
          = Cert.Spec.tail (Cert.Spec.re (m ((c.tc : Thread nD τ).loc main_arg0)) (m ((c.tc : Thread nD τ).loc main_arg1))
              (m ((c.tc : Thread nD τ).loc main_arg2)))
      ∧ r.2.mem ((c.tc : Thread nD τ).loc main_v22)
          = Cert.Spec.tail (Cert.Spec.im (m ((c.tc : Thread nD τ).loc main_arg0)) (m ((c.tc : Thread nD τ).loc main_arg1))
              (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v21 (Pipeline.mem_restRefs_of main_v21 (by decide) (by decide))).trans (tailRe m c (real_of_pre m hpre c)),
     ((h c).2 main_v22 (Pipeline.mem_restRefs_of main_v22 (by decide) (by decide))).trans (tailIm m c (real_of_pre m hpre c)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.KernelRun

end
-- ==== Proof.RefValue.lean ====
/-
  The idealized reference's run, restated: its two results are the real and the imaginary part of the specification,
  each with a unit axis inserted, as functions of the three arguments. The reference's host operations are, one for one,
  the operations the specification is written with, so the two terms are the same.
-/
import proofs.«145184_j85813446574645_1_alg».proof.Defs
import proofs.«145184_j85813446574645_1_alg».proof.Proof.Gen.ReferenceIdeal.Run
import proofs.«145184_j85813446574645_1_alg».proof.Proof.Spec

noncomputable section

namespace Cert.ReferenceIdeal.RefValue

open Idealize.ShloMosaic Idealize.ShloMosaic.TcCoe Idealize.SL.Sem
open Cert.ReferenceIdeal Cert.ReferenceIdeal.Gen

variable (m : (ℓ : Loc nD τ sig) → Buf (Elt Ideal) ℓ) (ρ : Dev nD → PrngReg)

theorem run : θ_run (defs (F := Ideal)) (onTc (τ := τ) (main (F := Ideal))) ⟨m, fun _ => 0, ρ⟩ fun r => ∀ c : Dev nD,
      r.2.mem ((c.tc : Thread nD τ).loc main_v22)
          = Cert.Spec.tail (Cert.Spec.re (m ((c.tc : Thread nD τ).loc main_arg0)) (m ((c.tc : Thread nD τ).loc main_arg1))
              (m ((c.tc : Thread nD τ).loc main_arg2)))
      ∧ r.2.mem ((c.tc : Thread nD τ).loc main_v23)
          = Cert.Spec.tail (Cert.Spec.im (m ((c.tc : Thread nD τ).loc main_arg0)) (m ((c.tc : Thread nD τ).loc main_arg1))
              (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run (F := Ideal) m ρ

end Cert.ReferenceIdeal.RefValue

end
-- ==== Proof.lean ====
/-
  A complex projection against its plain reference, over the extended reals.

  Both programs normalise the two columns of the projector, form the two 4096 × 4096 outer-product matrices P and Q, and
  return (x·P − y·Q, x·Q + y·P) with a unit axis inserted. The reference takes each product whole. The kernel takes
  them in eight steps of 512 positions along the contracted axis, accumulating per 1024 × 1024 output block
  (x·P − y·Q) step by step and likewise (x·Q + y·P). Sums of extended reals regroup freely, so the imaginary parts agree
  outright. The real parts agree once the subtracted terms y(I,K)·Q(K,J) are real numbers: then a sum of differences is
  the difference of the sums. The precondition gives this: the arguments are finite and the projector's second
  column is not the zero vector, so its norm is a positive real and Q has real entries. (Where that column is zero the
  reference itself divides zero by zero.) The idealization rewrote nothing, so the preservation claim is empty.
-/
import proofs.«145184_j85813446574645_1_alg».proof.Defs
import proofs.«145184_j85813446574645_1_alg».proof.Proof.Gen.Kernel
import proofs.«145184_j85813446574645_1_alg».proof.Proof.Gen.Kernel.Skeleton
import proofs.«145184_j85813446574645_1_alg».proof.Proof.Gen.Kernel.Launch
import proofs.«145184_j85813446574645_1_alg».proof.Proof.Gen.Kernel.Points
import proofs.«145184_j85813446574645_1_alg».proof.Proof.Gen.Kernel.Frame
import proofs.«145184_j85813446574645_1_alg».proof.Proof.Gen.KernelIdeal
import proofs.«145184_j85813446574645_1_alg».proof.Proof.Gen.KernelIdeal.Skeleton
import proofs.«145184_j85813446574645_1_alg».proof.Proof.Gen.KernelIdeal.Launch
import proofs.«145184_j85813446574645_1_alg».proof.Proof.Gen.KernelIdeal.Points
import proofs.«145184_j85813446574645_1_alg».proof.Proof.Gen.KernelIdeal.Frame
import proofs.«145184_j85813446574645_1_alg».proof.Proof.Gen.ReferenceIdeal
import proofs.«145184_j85813446574645_1_alg».proof.Proof.Gen.Pre_finite_inputs
import proofs.«145184_j85813446574645_1_alg».proof.Proof.KernelRun
import proofs.«145184_j85813446574645_1_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run with the results dropped. -/
theorem frame_referenceIdeal : Cert.frame_ReferenceIdeal := fun m ρ _ =>
  (θ_run Cert.ReferenceIdeal.defs _ _).mono (fun _ h c => (h c).2.2) (Cert.ReferenceIdeal.RefValue.run m ρ)

/-- From memories that agree on the arguments both idealized programs end with the same two results: the
    specification's real and imaginary parts of the arguments. -/
theorem algebraic : Cert.algebraic_KernelIdeal_ReferenceIdeal := by
  intro m ρ m' ρ' hpre hagree
  refine ⟨_, _, Cert.KernelIdeal.KernelRun.run m ρ hpre, ?_⟩
  refine (θ_run Cert.ReferenceIdeal.defs _ _).mono (fun _ h c => ⟨(h c).1.trans ?_, (h c).2.1.trans ?_, (h c).2.2⟩)
    (Cert.ReferenceIdeal.RefValue.run m' ρ')
  · rw [(hagree c).1, (hagree c).2.1, (hagree c).2.2]
  · rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
